-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S200000 : Shape := ⟨1, ![200000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x512 .f32) (main_arg1 : IVec S200000 32) (main_arg2 : FVec F S512x256 .f32) (main_arg3 : FVec F S256 .f32) (main_arg4 : FVec F S256x1 .f32) (main_arg5 : FVec F S1 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_v13 main_v16
-- ==== Kernel.lean ====
abbrev S200000x512 : Shape := ⟨2, ![200000, 512]⟩
abbrev S200000 : Shape := ⟨1, ![200000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S200000x1 : Shape := ⟨2, ![200000, 1]⟩
abbrev S1x256 : Shape := ⟨2, ![1, 256]⟩
abbrev S1x1 : Shape := ⟨2, ![1, 1]⟩
abbrev S2x256x1 : Shape := ⟨3, ![2, 256, 1]⟩
abbrev S2x256x512 : Shape := ⟨3, ![2, 256, 512]⟩
abbrev S2000x512 : Shape := ⟨2, ![2000, 512]⟩
abbrev S2000x1 : Shape := ⟨2, ![2000, 1]⟩
abbrev S1x256x1 : Shape := ⟨3, ![1, 256, 1]⟩
abbrev S1x256x512 : Shape := ⟨3, ![1, 256, 512]⟩
abbrev S256x512 : Shape := ⟨2, ![256, 512]⟩
abbrev S2000x256 : Shape := ⟨2, ![2000, 256]⟩
abbrev S_ : Shape := ⟨0, ![]⟩

abbrev nBuf : Space → Nat
  | .hbm => 25
  | .vmem => 17
  | .smem => 0
  | _ => 0

abbrev bufTy : (tb : Table) → Fin (tcTables nBuf tb) → BufTy
  | .hbm, ⟨0, _⟩ => ⟨S200000x512, .f32⟩
  | .hbm, ⟨1, _⟩ => ⟨S200000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S200000x1, .i32⟩
  | .hbm, ⟨7, _⟩ => ⟨S1x256, .f32⟩
  | .hbm, ⟨8, _⟩ => ⟨S1x1, .f32⟩
  | .hbm, ⟨9, _⟩ => ⟨S2x256x1, .f32⟩
  | .hbm, ⟨10, _⟩ => ⟨S2x256x1, .f32⟩
  | .hbm, ⟨11, _⟩ => ⟨S2x256x512, .f32⟩
  | .hbm, ⟨12, _⟩ => ⟨S_, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S_, .f32⟩
  | .hbm, ⟨17, _⟩ => ⟨S256x512, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x512, .f32⟩
  | .hbm, ⟨24, _⟩ => ⟨S256x512, .f32⟩
  | .local _ .vmem, ⟨0, _⟩ => ⟨S2000x512, .f32⟩
  | .local _ .vmem, ⟨1, _⟩ => ⟨S2000x512, .f32⟩
  | .local _ .vmem, ⟨2, _⟩ => ⟨S2000x1, .i32⟩
  | .local _ .vmem, ⟨3, _⟩ => ⟨S2000x1, .i32⟩
  | .local _ .vmem, ⟨4, _⟩ => ⟨S512x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S1x256x512, .f32⟩
  | .local _ .vmem, ⟨13, _⟩ => ⟨S1x256x512, .f32⟩
  | .local _ .vmem, ⟨14, _⟩ => ⟨S256x1, .f32⟩
  | .local _ .vmem, ⟨15, _⟩ => ⟨S256x1, .f32⟩
  | .local _ .vmem, ⟨16, _⟩ => ⟨S256x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v56 : BitVec 1 := Scalar.cmpi .eq arg1 c49_i32
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S200000_S200000x1 : S200000.ShapeCasts S200000x1
  shapeCasts_S256_S1x256 : S256.ShapeCasts S1x256
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  broadcasts_S2000x1_S2000x512 : S2000x1.Broadcasts S2000x512
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  reducesTo_S2x256x1_S256x1_d0 : S2x256x1.ReducesTo [0] S256x1
  h_S_ : 0 < S_.numel
  reducesTo_S2x256x512_S256x512_d0 : S2x256x512.ReducesTo [0] S256x512
  bcast_S_S256x1 : S_.BroadcastsInDim S256x1 (![] : Fin 0 → Fin S256x1.rank)
  bcast_S256x1_S256x512_0_1 : S256x1.BroadcastsInDim S256x512 (![0, 1] : Fin 2 → Fin S256x512.rank)
  dot_S2000x512_S512x256_S2000x256_1_0_0_1_n_n_wf : DotDims.WF S2000x512 S512x256 S2000x256 [1] [0] [0] [1] [] []
  dot_S2000x256_S256x1_S2000x1_1_0_0_1_n_n_wf : DotDims.WF S2000x256 S256x1 S2000x1 [1] [0] [0] [1] [] []
  dot_S2000x256_S2000x1_S256x1_0_0_1_1_n_n_wf : DotDims.WF S2000x256 S2000x1 S256x1 [0] [0] [1] [1] [] []
  dot_S2000x256_S2000x512_S256x512_0_0_1_1_n_n_wf : DotDims.WF S2000x256 S2000x512 S256x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .i32 = 32 ∨ (Rect.block (s := S200000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1.size a ≤ S2x256x1.size a
  hwx0_6 : ∀ i : grid0.Coords, EltTy.bits .f32 = 32 ∨ (Rect.block (s := S2x256x1) S1x256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1.size a ≤ S2x256x1.size a
  hwx0_7 : ∀ i : grid0.Coords, EltTy.bits .f32 = 32 ∨ (Rect.block (s := S2x256x1) S1x256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x512.size a ≤ S2x256x512.size a
  hwx0_8 : ∀ i : grid0.Coords, EltTy.bits .f32 = 32 ∨ (Rect.block (s := S2x256x512) S1x256x512.size (cc0_transform_8 i) (hinb0_8 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S2000x256_S2000x512_S256x512_0_0_1_1_n_n : DotDims S2000x256 S2000x512 S256x512 where
  lhsContracting := [0]
  rhsContracting := [0]
  lhsNonContracting := [1]
  rhsNonContracting := [1]
  lhsBatch := []
  rhsBatch := []
  wf := dot_S2000x256_S2000x512_S256x512_0_0_1_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S1x256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S200000x512 : Shape := ⟨2, ![200000, 512]⟩
abbrev S200000 : Shape := ⟨1, ![200000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S200000x256 : Shape := ⟨2, ![200000, 256]⟩
abbrev S1x256 : Shape := ⟨2, ![1, 256]⟩
abbrev S200000x1 : Shape := ⟨2, ![200000, 1]⟩
abbrev S1x1 : Shape := ⟨2, ![1, 1]⟩
abbrev S_ : Shape := ⟨0, ![]⟩
abbrev S256x512 : Shape := ⟨2, ![256, 512]⟩

abbrev nBuf : Space → Nat
  | .hbm => 53
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S200000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S200000x256, .f32⟩
  | .hbm, ⟨7, _⟩ => ⟨S1x256, .f32⟩
  | .hbm, ⟨8, _⟩ => ⟨S200000x256, .f32⟩
  | .hbm, ⟨9, _⟩ => ⟨S200000x256, .f32⟩
  | .hbm, ⟨10, _⟩ => ⟨S200000x256, .f32⟩
  | .hbm, ⟨11, _⟩ => ⟨S200000x1, .f32⟩
  | .hbm, ⟨12, _⟩ => ⟨S1x1, .f32⟩
  | .hbm, ⟨13, _⟩ => ⟨S200000x1, .f32⟩
  | .hbm, ⟨14, _⟩ => ⟨S200000x1, .f32⟩
  | .hbm, ⟨15, _⟩ => ⟨S_, .f32⟩
  | .hbm, ⟨16, _⟩ => ⟨S256x1, .f32⟩
  | .hbm, ⟨17, _⟩ => ⟨S200000x1, .i32⟩
  | .hbm, ⟨18, _⟩ => ⟨S256x1, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x1, .f32⟩
  | .hbm, ⟨28, _⟩ => ⟨S200000x1, .f32⟩
  | .hbm, ⟨29, _⟩ => ⟨S200000x1, .f32⟩
  | .hbm, ⟨30, _⟩ => ⟨S_, .f32⟩
  | .hbm, ⟨31, _⟩ => ⟨S256x1, .f32⟩
  | .hbm, ⟨32, _⟩ => ⟨S200000x1, .i32⟩
  | .hbm, ⟨33, _⟩ => ⟨S256x1, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x1, .f32⟩
  | .hbm, ⟨43, _⟩ => ⟨S_, .f32⟩
  | .hbm, ⟨44, _⟩ => ⟨S200000x1, .f32⟩
  | .hbm, ⟨45, _⟩ => ⟨S200000x1, .f32⟩
  | .hbm, ⟨46, _⟩ => ⟨S200000x1, .f32⟩
  | .hbm, ⟨47, _⟩ => ⟨S200000x512, .f32⟩
  | .hbm, ⟨48, _⟩ => ⟨S200000x512, .f32⟩
  | .hbm, ⟨49, _⟩ => ⟨S_, .f32⟩
  | .hbm, ⟨50, _⟩ => ⟨S256x512, .f32⟩
  | .hbm, ⟨51, _⟩ => ⟨S200000x1, .i32⟩
  | .hbm, ⟨52, _⟩ => ⟨S256x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S256x1 : S_.BroadcastsInDim S256x1 (![] : Fin 0 → Fin S256x1.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S200000x1 : S_.BroadcastsInDim S200000x1 (![] : Fin 0 → Fin S200000x1.rank)
  bcast_S200000x1_S200000x512_0_1 : S200000x1.BroadcastsInDim S200000x512 (![0, 1] : Fin 2 → Fin S200000x512.rank)
  bcast_S_S256x512 : S_.BroadcastsInDim S256x512 (![] : Fin 0 → Fin S256x512.rank)
  dot_S200000x512_S512x256_S200000x256_1_0_0_1_n_n_wf : DotDims.WF S200000x512 S512x256 S200000x256 [1] [0] [0] [1] [] []
  dot_S200000x256_S256x1_S200000x1_1_0_0_1_n_n_wf : DotDims.WF S200000x256 S256x1 S200000x1 [1] [0] [0] [1] [] []
  scatter_S256x1_S200000x1_S200000x1_1_0_0_1_wf : ScatterDims.WF S256x1 S200000x1 S200000x1 [1] [0] [0] 1
  gather_S256x1_S200000x1_S200000x1_1_0_n_n_0_1_11_wf : GatherDims.WF S256x1 S200000x1 S200000x1 [1] [0] [] [0] [] 1 ![1, 1]
  scatter_S256x512_S200000x1_S200000x512_1_0_0_1_wf : ScatterDims.WF S256x512 S200000x1 S200000x512 [1] [0] [0] 1

variable [Facts₀]

def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def scatter_S256x1_S200000x1_S200000x1_1_0_0_1 : ScatterDims S256x1 S200000x1 S200000x1 where
  updateWindowDims := [1]
  insertedWindowDims := [0]
  scatterDimsToOperandDims := [0]
  indexVectorDim := 1
  wf := scatter_S256x1_S200000x1_S200000x1_1_0_0_1_wf
def gather_S256x1_S200000x1_S200000x1_1_0_n_n_0_1_11 : GatherDims S256x1 S200000x1 S200000x1 where
  offsetDims := [1]
  collapsedSliceDims := [0]
  operandBatchingDims := []
  startIndicesBatchingDims := []
  startIndexMap := [0]
  indexVectorDim := 1
  sliceSizes := ![1, 1]
  wf := gather_S256x1_S200000x1_S200000x1_1_0_n_n_0_1_11_wf
def scatter_S256x512_S200000x1_S200000x512_1_0_0_1 : ScatterDims S256x512 S200000x1 S200000x512 where
  updateWindowDims := [1]
  insertedWindowDims := [0]
  scatterDimsToOperandDims := [0]
  indexVectorDim := 1
  wf := scatter_S256x512_S200000x1_S200000x512_1_0_0_1_wf

class Facts : Prop extends Facts₀ where

variable [Facts]
-- ==== Proof.Spec.lean ====
/-
  Attention pooling over segments: the result as ONE function of the argument arrays, index by index,
  over the extended reals.

  The arguments: `x` [200000, 512], a segment id per row `seg` [200000] (32-bit words), and the scorer's
  weights `W1` [512, 256], `b1` [256], `W2` [256, 1], `b2` [1].

  Row `n` has the score  s n = (∑ h, tanh ((∑ d, x[n,d] · W1[d,h]) + b1[h]) · W2[h,0]) + b2[0].
  Row `n` belongs to segment `k` (of 256) when its id word is the word of `k`; a row whose id is no
  segment's word (negative, or 256 and above) belongs to none.

  Three sums over the rows of segment `k`:
      A k   = ∑ s n,        B k = ∑ exp (s n),        C k j = ∑ x[n,j] · exp (s n).
  The one-pass form of the result is      C k j / (B k + ε · exp (A k)).
  The two-pass form first recentres each row's score by its segment's A (read back through the row's id,
  normalised and clamped into the 256 segments), w n = exp (s n - A (g n)), sums those per segment,
  B' k = ∑ w n, divides, a n = w n / (B' (g n) + ε), and sums again:   ∑ x[n,j] · a n.
  Over finite arguments the two are the same number: exp (s - A) = exp s / exp A, and exp A > 0 cancels.
-/
import Idealize.ShloMosaic.PureOps.Ideal
import Idealize.ShloMosaic.PureOps.Ideal.Laws
import Idealize.ShloMosaic.Lib.ValueIdx

noncomputable section

open scoped BigOperators

namespace Cert.AttnPool

open Idealize.ShloMosaic Idealize.ShloMosaic.ValueIdx

abbrev SX : Shape := ⟨2, ![200000, 512]⟩
abbrev SSeg : Shape := ⟨1, ![200000]⟩
abbrev SW1 : Shape := ⟨2, ![512, 256]⟩
abbrev SB1 : Shape := ⟨1, ![256]⟩
abbrev SW2 : Shape := ⟨2, ![256, 1]⟩
abbrev SB2 : Shape := ⟨1, ![1]⟩
abbrev SOut : Shape := ⟨2, ![256, 512]⟩

/-- The small positive constant both programs add to the normaliser (the f32 nearest 1e-8). -/
abbrev eps : EReal := Ideal.ofBits .f32 0x322BCC77#32

section
variable (x : SX.Idx → EReal) (seg : SSeg.Idx → BitVec 32) (W1 : SW1.Idx → EReal) (b1 : SB1.Idx → EReal)
  (W2 : SW2.Idx → EReal) (b2 : SB2.Idx → EReal)

/-- Row `n`'s score: the two-layer scorer applied to row `n` of `x`. -/
def score (n : Fin 200000) : EReal :=
  (∑ h : Fin 256, Ideal.tanh ((∑ d : Fin 512, x (ix2 n d) * W1 (ix2 d h)) + b1 (ix1 h)) * W2 (ix2 h 0)) + b2 (ix1 0)

/-- Row `n` belongs to segment `k`: its id word is `k`'s. -/
def inSeg (n : Fin 200000) (k : Fin 256) : Prop := seg (ix1 n) = BitVec.ofNat 32 k.val

instance (n : Fin 200000) (k : Fin 256) : Decidable (inSeg seg n k) := by unfold inSeg; infer_instance

/-- The sum over segment `k`'s rows of a per-row quantity. -/
def segSum (f : Fin 200000 → EReal) (k : Fin 256) : EReal := ∑ n : Fin 200000, if inSeg seg n k then f n else 0

/-- Row `r` of block `t`: the rows come in 100 consecutive blocks of 2000. -/
def blockRow (t : Fin 100) (r : Fin 2000) : Fin 200000 := ⟨t.val * 2000 + r.val, by have := t.isLt; have := r.isLt; omega⟩

/-- The part of a segment's sum that lies in block `t`. -/
def partSum (f : Fin 200000 → EReal) (t : Fin 100) (k : Fin 256) : EReal :=
  ∑ r : Fin 2000, if inSeg seg (blockRow t r) k then f (blockRow t r) else 0

/-- Block `s` of half `a`: each half of the rows is 50 consecutive blocks. -/
def halfBlock (a : Fin 2) (s : Fin 50) : Fin 100 := ⟨a.val * 50 + s.val, by have := a.isLt; have := s.isLt; omega⟩

/-- The part of a segment's sum that lies in half `a` of the rows: its 50 blocks' parts added up. -/
def coreSum (f : Fin 200000 → EReal) (a : Fin 2) (k : Fin 256) : EReal :=
  ∑ s : Fin 50, partSum seg f (halfBlock a s) k

/-- A: the segment's sum of scores. -/
def sumScore (k : Fin 256) : EReal := segSum seg (score x W1 b1 W2 b2) k
/-- B: the segment's sum of exponentiated scores. -/
def sumExp (k : Fin 256) : EReal := segSum seg (fun n => Ideal.exp (score x W1 b1 W2 b2 n)) k
/-- C: the segment's sum of rows weighted by their exponentiated scores. -/
def sumWeighted (k : Fin 256) (j : Fin 512) : EReal :=
  segSum seg (fun n => x (ix2 n j) * Ideal.exp (score x W1 b1 W2 b2 n)) k

/-- The one-pass form of the pooled output. -/
def onePass : SOut.Idx → EReal := fun i =>
  Ideal.div (sumWeighted x seg W1 b1 W2 b2 (i 0) (i 1))
    (sumExp x seg W1 b1 W2 b2 (i 0) + eps * Ideal.exp (sumScore x seg W1 b1 W2 b2 (i 0)))

/-- The segment a row's id reads back from: the id as a signed number, 256 added when negative, clamped into [0, 255]. -/
def readSeg (n : Fin 200000) : Fin 256 :=
  ⟨min ((if (seg (ix1 n)).slt 0#32 then seg (ix1 n) + 256#32 else seg (ix1 n)).toInt.toNat) 255, by omega⟩

/-- A row's recentred weight: exp (s n - A (g n)). -/
def weight (n : Fin 200000) : EReal :=
  Ideal.exp (score x W1 b1 W2 b2 n - sumScore x seg W1 b1 W2 b2 (readSeg seg n))

/-- B': the segment's sum of recentred weights. -/
def sumWeight (k : Fin 256) : EReal := segSum seg (weight x seg W1 b1 W2 b2) k

/-- A row's normalised weight: w n / (B' (g n) + ε). -/
def attn (n : Fin 200000) : EReal :=
  Ideal.div (weight x seg W1 b1 W2 b2 n) (sumWeight x seg W1 b1 W2 b2 (readSeg seg n) + eps)

/-- The two-pass form of the pooled output. -/
def twoPass : SOut.Idx → EReal := fun i =>
  segSum seg (fun n => x (ix2 n (i 1)) * attn x seg W1 b1 W2 b2 n) (i 0)

end

end Cert.AttnPool

end
-- ==== Proof.SpecAlgebra.lean ====
import proofs.«427669_j44916767981572_2_alg».proof.Proof.Spec
import Mathlib.Logic.Equiv.Fin.Basic
import Mathlib.Algebra.BigOperators.Fin
import Mathlib.Analysis.SpecialFunctions.Exp

noncomputable section

open scoped BigOperators

/-! The algebra of the pooled output: a segment's sum split into halves and blocks, and the one-pass form against
    the two-pass form over finite arguments. -/

namespace Cert.AttnPool

open Idealize.ShloMosaic Idealize.ShloMosaic.ValueIdx

namespace Alg

/-- Position `b` of block `a`, of `A` blocks of `B`, is a position below `A * B`. -/
theorem idx_lt {A B a b : Nat} (ha : a < A) (hb : b < B) : a * B + b < A * B :=
  calc a * B + b < a * B + B := by omega
    _ = (a + 1) * B := (Nat.succ_mul a B).symm
    _ ≤ A * B := Nat.mul_le_mul_right B ha

/-- A sum over `A * B` consecutive positions is the sum over the `A` blocks of each block's `B` positions:
    the pair (a, b) ↦ a * B + b runs over the positions once each. -/
theorem sum_fin_mul {M : Type} [AddCommMonoid M] {N A B : Nat} (h : N = A * B) (g : Fin N → M) :
    ∑ n : Fin N, g n = ∑ a : Fin A, ∑ b : Fin B, g ⟨a.val * B + b.val, h ▸ idx_lt a.isLt b.isLt⟩ := by
  subst h
  rw [← Equiv.sum_comp finProdFinEquiv g, Fintype.sum_prod_type]
  refine Finset.sum_congr rfl fun a _ => Finset.sum_congr rfl fun b _ => ?_
  congr 1
  apply Fin.ext
  simp only [finProdFinEquiv, Equiv.coe_fn_mk]
  rw [Nat.add_comm, Nat.mul_comm]

end Alg

/-- A segment's sum is its two halves' parts added (the 200000 rows are 2 halves of 50 blocks of 2000):
    rows regrouped as 100 blocks of 2000, then the blocks as 2 halves of 50. -/
theorem segSum_eq_cores (seg : SSeg.Idx → BitVec 32) (f : Fin 200000 → EReal) (k : Fin 256) :
    segSum seg f k = ∑ a : Fin 2, coreSum seg f a k := by
  unfold segSum coreSum partSum
  rw [Alg.sum_fin_mul (A := 100) (B := 2000) rfl]
  rw [Alg.sum_fin_mul (N := 100) (A := 2) (B := 50) rfl]
  rfl

/-- A row of segment `k` reads segment `k` back: its id is `k`'s word, and `k < 256 < 2^31`, so as a signed
    number the word is `k` itself: not negative, and already inside [0, 255]. -/
theorem readSeg_of_inSeg (seg : SSeg.Idx → BitVec 32) (n : Fin 200000) (k : Fin 256) (h : inSeg seg n k) :
    readSeg seg n = k := by
  unfold inSeg at h
  have hk : k.val < 256 := k.isLt
  have hnat : (BitVec.ofNat 32 k.val).toNat = k.val := by
    rw [BitVec.toNat_ofNat]; omega
  have hint : (BitVec.ofNat 32 k.val).toInt = (k.val : Int) := by
    rw [BitVec.toInt_eq_toNat_of_lt (by rw [hnat]; omega), hnat]
  have hslt : (BitVec.ofNat 32 k.val).slt 0#32 = false := by
    simp [BitVec.slt, hint]
  apply Fin.ext
  show min ((if (seg (ix1 n)).slt 0#32 then seg (ix1 n) + 256#32 else seg (ix1 n)).toInt.toNat) 255 = k.val
  rw [h, hslt]
  simp only [Bool.false_eq_true, if_false, hint, Int.toNat_natCast]
  omega

/-- The constant ε is a positive real: its pattern has sign 0, exponent field 100 and fraction field 2870391,
    so it denotes (2^23 + 2870391) · 2^(100 - 127 - 23) = 11258999 · 2^(-50). -/
theorem eps_pos_real : ∃ e : ℝ, 0 < e ∧ eps = (e : EReal) := by
  refine ⟨(11258999 : ℝ) * (2:ℝ)^(-50 : ℤ), by positivity, ?_⟩
  simp [eps, Ideal.ofBits, Ideal.ieee, -EReal.coe_mul]

namespace Alg

/-- The coercion of the reals into the extended reals carries finite sums to finite sums. -/
theorem coe_sum {ι : Type} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The real sum over the rows of segment `k`. -/
def rsum (seg : SSeg.Idx → BitVec 32) (f : Fin 200000 → ℝ) (k : Fin 256) : ℝ :=
  ∑ n : Fin 200000, if inSeg seg n k then f n else 0

/-- A segment's sum of real summands is the real sum, coerced. -/
theorem segSum_coe (seg : SSeg.Idx → BitVec 32) (f : Fin 200000 → ℝ) (k : Fin 256) :
    segSum seg (fun n => (f n : EReal)) k = ((rsum seg f k : ℝ) : EReal) := by
  unfold segSum rsum
  rw [coe_sum]
  refine Finset.sum_congr rfl fun n _ => ?_
  split_ifs
  · rfl
  · exact EReal.coe_zero.symm

/-- A segment's sum only looks at its own rows. -/
theorem segSum_congr (seg : SSeg.Idx → BitVec 32) {F G : Fin 200000 → EReal} (k : Fin 256)
    (h : ∀ n, inSeg seg n k → F n = G n) : segSum seg F k = segSum seg G k := by
  unfold segSum
  refine Finset.sum_congr rfl fun n _ => ?_
  split_ifs with hn
  · exact h n hn
  · rfl

/-- A constant factor comes out of a segment's real sum. -/
theorem rsum_mul_const (seg : SSeg.Idx → BitVec 32) (f : Fin 200000 → ℝ) (c : ℝ) (k : Fin 256) :
    rsum seg (fun n => f n * c) k = rsum seg f k * c := by
  unfold rsum
  rw [Finset.sum_mul]
  refine Finset.sum_congr rfl fun n _ => ?_
  split_ifs
  · rfl
  · exact (zero_mul c).symm

/-- A segment's real sum of nonnegative summands is nonnegative (zero when the segment is empty). -/
theorem rsum_nonneg (seg : SSeg.Idx → BitVec 32) (f : Fin 200000 → ℝ) (k : Fin 256) (h : ∀ n, 0 ≤ f n) :
    0 ≤ rsum seg f k := by
  unfold rsum
  refine Finset.sum_nonneg fun n _ => ?_
  split_ifs
  · exact h n
  · exact le_rfl

/-- The law over the reals. With A, B, C the segment's sums of s, exp s and x · exp s, and B' the sum of
    exp (s - A) = exp s / exp A, so B' = B / exp A: each row's x · exp (s - A) / (B' + ε) is
    x · exp s · (1 / exp A) / (B / exp A + ε) = x · exp s / (B + ε · exp A); summed, C / (B + ε · exp A).
    Only B ≥ 0 is used (an empty segment has B = 0), with ε · exp A > 0. -/
theorem real_law (seg : SSeg.Idx → BitVec 32) (s xc : Fin 200000 → ℝ) (k : Fin 256) (e : ℝ) (he : 0 < e) :
    rsum seg (fun n => xc n * Real.exp (s n)) k *
        (1 / (rsum seg (fun n => Real.exp (s n)) k + e * Real.exp (rsum seg s k)))
      = rsum seg (fun n => xc n * (Real.exp (s n - rsum seg s k) *
          (1 / (rsum seg (fun m => Real.exp (s m - rsum seg s k)) k + e)))) k := by
  have hB0 : 0 ≤ rsum seg (fun n => Real.exp (s n)) k := rsum_nonneg seg _ k (fun n => (Real.exp_pos _).le)
  have hE : 0 < Real.exp (rsum seg s k) := Real.exp_pos _
  generalize rsum seg s k = A at *
  generalize hB : rsum seg (fun n => Real.exp (s n)) k = B at *
  have hB' : rsum seg (fun m => Real.exp (s m - A)) k = B * (Real.exp A)⁻¹ := by
    have hf : (fun m => Real.exp (s m - A)) = fun m => Real.exp (s m) * (Real.exp A)⁻¹ := by
      funext m; rw [Real.exp_sub, div_eq_mul_inv]
    rw [hf, rsum_mul_const, hB]
  rw [hB']
  have hfun : (fun n => xc n * (Real.exp (s n - A) * (1 / (B * (Real.exp A)⁻¹ + e))))
      = fun n => (xc n * Real.exp (s n)) * ((Real.exp A)⁻¹ * (1 / (B * (Real.exp A)⁻¹ + e))) := by
    funext n; rw [Real.exp_sub]; ring
  rw [hfun, rsum_mul_const]
  have h1 : B + e * Real.exp A ≠ 0 := (add_pos_of_nonneg_of_pos hB0 (mul_pos he hE)).ne'
  have h2 : B * (Real.exp A)⁻¹ + e ≠ 0 :=
    (add_pos_of_nonneg_of_pos (mul_nonneg hB0 (inv_pos.mpr hE).le) he).ne'
  have h3 : Real.exp A ≠ 0 := hE.ne'
  have hfin : (Real.exp A)⁻¹ * (1 / (B * (Real.exp A)⁻¹ + e)) = 1 / (B + e * Real.exp A) := by
    field_simp
  rw [hfin]

/-- The law over the extended reals, for real scores `s` and a real column `xc` of `x`. -/
theorem ereal_law (seg : SSeg.Idx → BitVec 32) (s xc : Fin 200000 → ℝ) (k : Fin 256) (e : ℝ) (he : 0 < e) :
    Ideal.div (segSum seg (fun n => (xc n : EReal) * Ideal.exp (s n : EReal)) k)
        (segSum seg (fun n => Ideal.exp (s n : EReal)) k
          + (e : EReal) * Ideal.exp (segSum seg (fun n => (s n : EReal)) k))
      = segSum seg (fun n => (xc n : EReal) *
          Ideal.div (Ideal.exp ((s n : EReal) - segSum seg (fun n => (s n : EReal)) (readSeg seg n)))
            (segSum seg (fun m => Ideal.exp ((s m : EReal)
                - segSum seg (fun n => (s n : EReal)) (readSeg seg m))) (readSeg seg n) + (e : EReal))) k := by
  have hB0 : 0 ≤ rsum seg (fun n => Real.exp (s n)) k := rsum_nonneg seg _ k (fun n => (Real.exp_pos _).le)
  have hB0' : 0 ≤ rsum seg (fun m => Real.exp (s m - rsum seg s k)) k :=
    rsum_nonneg seg _ k (fun n => (Real.exp_pos _).le)
  have h1 : rsum seg (fun n => Real.exp (s n)) k + e * Real.exp (rsum seg s k) ≠ 0 :=
    (add_pos_of_nonneg_of_pos hB0 (mul_pos he (Real.exp_pos _))).ne'
  have h2 : rsum seg (fun m => Real.exp (s m - rsum seg s k)) k + e ≠ 0 :=
    (add_pos_of_nonneg_of_pos hB0' he).ne'
  -- the left side, in the reals
  have hL : Ideal.div (segSum seg (fun n => (xc n : EReal) * Ideal.exp (s n : EReal)) k)
        (segSum seg (fun n => Ideal.exp (s n : EReal)) k
          + (e : EReal) * Ideal.exp (segSum seg (fun n => (s n : EReal)) k))
      = ((rsum seg (fun n => xc n * Real.exp (s n)) k *
        (1 / (rsum seg (fun n => Real.exp (s n)) k + e * Real.exp (rsum seg s k))) : ℝ) : EReal) := by
    have e1 : (fun n => (xc n : EReal) * Ideal.exp (s n : EReal))
        = fun n => ((xc n * Real.exp (s n) : ℝ) : EReal) := by
      funext n; rw [Ideal.exp_coe, EReal.coe_mul]
    have e2 : (fun n => Ideal.exp (s n : EReal)) = fun n => ((Real.exp (s n) : ℝ) : EReal) := by
      funext n; rw [Ideal.exp_coe]
    rw [e1, e2, segSum_coe, segSum_coe, segSum_coe, Ideal.exp_coe, ← EReal.coe_mul, ← EReal.coe_add,
      Ideal.div_coe h1, ← EReal.coe_mul]
  -- a row of segment k reads k back, so its weight is exp (s n - A k)
  have hw : ∀ n, inSeg seg n k →
      Ideal.exp ((s n : EReal) - segSum seg (fun n => (s n : EReal)) (readSeg seg n))
        = ((Real.exp (s n - rsum seg s k) : ℝ) : EReal) := by
    intro n hn
    rw [readSeg_of_inSeg seg n k hn, segSum_coe, ← EReal.coe_sub, Ideal.exp_coe]
  have hBw : segSum seg (fun m => Ideal.exp ((s m : EReal)
        - segSum seg (fun n => (s n : EReal)) (readSeg seg m))) k
      = ((rsum seg (fun m => Real.exp (s m - rsum seg s k)) k : ℝ) : EReal) := by
    rw [segSum_congr seg k hw, segSum_coe]
  have hR : segSum seg (fun n => (xc n : EReal) *
          Ideal.div (Ideal.exp ((s n : EReal) - segSum seg (fun n => (s n : EReal)) (readSeg seg n)))
            (segSum seg (fun m => Ideal.exp ((s m : EReal)
                - segSum seg (fun n => (s n : EReal)) (readSeg seg m))) (readSeg seg n) + (e : EReal))) k
      = ((rsum seg (fun n => xc n * (Real.exp (s n - rsum seg s k) *
          (1 / (rsum seg (fun m => Real.exp (s m - rsum seg s k)) k + e)))) k : ℝ) : EReal) := by
    rw [← segSum_coe]
    refine segSum_congr seg k fun n hn => ?_
    rw [hw n hn, readSeg_of_inSeg seg n k hn, hBw, ← EReal.coe_add, Ideal.div_coe h2, ← EReal.coe_mul,
      ← EReal.coe_mul]
  rw [hL, hR, real_law seg s xc k e he]

end Alg

namespace Alg

/-- Row `n`'s score over real arguments, as a real number. -/
def sreal (xr : SX.Idx → ℝ) (W1r : SW1.Idx → ℝ) (b1r : SB1.Idx → ℝ) (W2r : SW2.Idx → ℝ) (b2r : SB2.Idx → ℝ)
    (n : Fin 200000) : ℝ :=
  (∑ h : Fin 256, Real.tanh ((∑ d : Fin 512, xr (ix2 n d) * W1r (ix2 d h)) + b1r (ix1 h)) * W2r (ix2 h 0))
    + b2r (ix1 0)

/-- Over real arguments every row's score is a real number: sums and products of reals are real, and the
    hyperbolic tangent of a real is real. -/
theorem score_coe (xr : SX.Idx → ℝ) (W1r : SW1.Idx → ℝ) (b1r : SB1.Idx → ℝ) (W2r : SW2.Idx → ℝ) (b2r : SB2.Idx → ℝ) :
    score (fun i => ((xr i : ℝ) : EReal)) (fun i => ((W1r i : ℝ) : EReal)) (fun i => ((b1r i : ℝ) : EReal))
      (fun i => ((W2r i : ℝ) : EReal)) (fun i => ((b2r i : ℝ) : EReal))
      = fun n => ((sreal xr W1r b1r W2r b2r n : ℝ) : EReal) := by
  funext n
  unfold score sreal
  have inner : ∀ h : Fin 256, (∑ d : Fin 512, ((xr (ix2 n d) : ℝ) : EReal) * ((W1r (ix2 d h) : ℝ) : EReal))
      = ((∑ d : Fin 512, xr (ix2 n d) * W1r (ix2 d h) : ℝ) : EReal) := by
    intro h
    rw [coe_sum]
    exact Finset.sum_congr rfl fun d _ => (EReal.coe_mul _ _).symm
  have outer : (∑ h : Fin 256, Ideal.tanh ((∑ d : Fin 512, ((xr (ix2 n d) : ℝ) : EReal) * ((W1r (ix2 d h) : ℝ) : EReal))
        + ((b1r (ix1 h) : ℝ) : EReal)) * ((W2r (ix2 h 0) : ℝ) : EReal))
      = ((∑ h : Fin 256, Real.tanh ((∑ d : Fin 512, xr (ix2 n d) * W1r (ix2 d h)) + b1r (ix1 h)) * W2r (ix2 h 0) : ℝ) : EReal) := by
    rw [coe_sum]
    refine Finset.sum_congr rfl fun h _ => ?_
    rw [inner h, ← EReal.coe_add, Ideal.tanh_coe, ← EReal.coe_mul]
  exact (congrArg (fun t => t + ((b2r (ix1 0) : ℝ) : EReal)) outer).trans (EReal.coe_add _ _).symm

/-- The law for any score function and column that take real values. -/
theorem ereal_law' (seg : SSeg.Idx → BitVec 32) (sc xc : Fin 200000 → EReal) (k : Fin 256)
    (s xr : Fin 200000 → ℝ) (hsc : sc = fun n => ((s n : ℝ) : EReal)) (hxc : xc = fun n => ((xr n : ℝ) : EReal)) :
    Ideal.div (segSum seg (fun n => xc n * Ideal.exp (sc n)) k)
        (segSum seg (fun n => Ideal.exp (sc n)) k + eps * Ideal.exp (segSum seg sc k))
      = segSum seg (fun n => xc n *
          Ideal.div (Ideal.exp (sc n - segSum seg sc (readSeg seg n)))
            (segSum seg (fun m => Ideal.exp (sc m - segSum seg sc (readSeg seg m))) (readSeg seg n) + eps)) k := by
  subst hsc hxc
  obtain ⟨e, he, hee⟩ := eps_pos_real
  rw [hee]
  exact ereal_law seg s xr k e he

end Alg

/-- Over finite arguments the one-pass form is the two-pass form. -/
theorem onePass_eq_twoPass (x : SX.Idx → EReal) (seg : SSeg.Idx → BitVec 32) (W1 : SW1.Idx → EReal) (b1 : SB1.Idx → EReal)
    (W2 : SW2.Idx → EReal) (b2 : SB2.Idx → EReal)
    (hx : ∀ i, ∃ r : ℝ, x i = (r : EReal)) (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    onePass x seg W1 b1 W2 b2 = twoPass x seg W1 b1 W2 b2 := by
  choose xr hxr using hx
  choose W1r hW1r using hW1
  choose b1r hb1r using hb1
  choose W2r hW2r using hW2
  choose b2r hb2r using hb2
  obtain rfl : x = fun i => ((xr i : ℝ) : EReal) := funext hxr
  obtain rfl : W1 = fun i => ((W1r i : ℝ) : EReal) := funext hW1r
  obtain rfl : b1 = fun i => ((b1r i : ℝ) : EReal) := funext hb1r
  obtain rfl : W2 = fun i => ((W2r i : ℝ) : EReal) := funext hW2r
  obtain rfl : b2 = fun i => ((b2r i : ℝ) : EReal) := funext hb2r
  funext i
  exact Alg.ereal_law' seg _ (fun n => ((xr (ix2 n (i 1)) : ℝ) : EReal)) (i 0) (Alg.sreal xr W1r b1r W2r b2r)
    (fun n => xr (ix2 n (i 1))) (Alg.score_coe xr W1r b1r W2r b2r) rfl

end Cert.AttnPool

end
-- ==== Proof.FiniteArgs.lean ====
import proofs.«427669_j44916767981572_2_alg».proof.Pre_finite_inputs
import proofs.«427669_j44916767981572_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

/-! The precondition read: every entry of the five float arguments is a real number. -/

namespace Cert.FiniteArgs

open Idealize.ShloMosaic Idealize.ShloMosaic.ValueIdx Cert.Pre_finite_inputs

/-- The rank-0 shape has exactly one index: there is no axis to disagree on. -/
private instance subsingleton_scalar_idx : Subsingleton S_.Idx :=
  ⟨fun a b => funext fun d => d.elim0⟩

/-- The f32 word `0x7F800000` (sign 0, exponent all ones, fraction 0) denotes `+∞`. -/
private theorem inf_word : Ideal.ofBits .f32 0x7F800000#32 = (⊤ : EReal) := by
  simp [Ideal.ofBits, Ideal.ieee]

/-- On one value: if the test `|a| < +∞` answers 1 then `a` is a real number. In the extended reals `|a|`
    is `max a (-a)`; it is `⊤` at both `⊥` (since `-⊥ = ⊤`) and `⊤`, so the strict comparison with `⊤` rules
    both infinities out. -/
private theorem real_of_abs_lt_inf (a : EReal)
    (h : Ideal.cmp .olt (max a (-a)) (Ideal.ofBits .f32 0x7F800000#32) = 1#1) : ∃ r : ℝ, a = (r : EReal) := by
  rw [inf_word] at h
  have hlt : max a (-a) < ⊤ := by
    by_contra hn
    simp [Ideal.cmp, hn] at h
  induction a using EReal.rec with
  | bot => simp at hlt
  | coe r => exact ⟨r, rfl⟩
  | top => simp at hlt

/-- One block of the precondition, over any shape: the elementwise test `|x| < +∞` (the scalar `+∞` broadcast to
    the shape), and-reduced over all axes to a single bit. If that bit is 1, every test answered 1, so every entry of
    `x` is a real number. -/
private theorem real_of_block {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ix0 = 1#1) :
    ∀ i, ∃ r : ℝ, x i = (r : EReal) := by
  intro i
  have hi := Host.reduce_andi_all _ init hr hu ix0 e i
  exact real_of_abs_lt_inf (x i) hi

theorem real_of_pre (x : FVec Ideal S200000x512 .f32) (seg : IVec S200000 32) (W1 : FVec Ideal S512x256 .f32)
    (b1 : FVec Ideal S256 .f32) (W2 : FVec Ideal S256x1 .f32) (b2 : FVec Ideal S1 .f32)
    (h : Cert.Pre_finite_inputs.fn (F := Ideal) x seg W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) := by
  have h0 := congrFun h ix0
  dsimp only [Cert.Pre_finite_inputs.fn, Cert.Pre_finite_inputs.fn_part1] at h0
  -- the result bit is (((x-bit ∧ W1-bit) ∧ b1-bit) ∧ W2-bit) ∧ b2-bit
  obtain ⟨h1234, e5⟩ := IntOp.andi_eq_one.1 h0
  obtain ⟨h123, e4⟩ := IntOp.andi_eq_one.1 h1234
  obtain ⟨h12, e3⟩ := IntOp.andi_eq_one.1 h123
  obtain ⟨e1, e2⟩ := IntOp.andi_eq_one.1 h12
  exact ⟨real_of_block x _ _ _ _ e1, real_of_block W1 _ _ _ _ e2, real_of_block b1 _ _ _ _ e3,
    real_of_block W2 _ _ _ _ e4, real_of_block b2 _ _ _ _ e5⟩

end Cert.FiniteArgs

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KArgs.lean ====
import proofs.«427669_j44916767981572_2_alg».proof.Proof.Gen.KernelIdeal.Frame
import proofs.«427669_j44916767981572_2_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

/-! The idealized kernel's six argument arrays on a core, and a grid point's number as one of the 100 blocks. -/

namespace Cert.KernelIdeal.Val

open Cert.KernelIdeal Cert.KernelIdeal.Gen Cert.AttnPool

variable (m : (ℓ : Loc nD τ sig) → Buf (Elt Ideal) ℓ)

abbrev argX (c : Dev nD) : SX.Idx → EReal := m ((c.tc : Thread nD τ).loc main_arg0)
abbrev argSeg (c : Dev nD) : SSeg.Idx → BitVec 32 := m ((c.tc : Thread nD τ).loc main_arg1)
abbrev argW1 (c : Dev nD) : SW1.Idx → EReal := m ((c.tc : Thread nD τ).loc main_arg2)
abbrev argB1 (c : Dev nD) : SB1.Idx → EReal := m ((c.tc : Thread nD τ).loc main_arg3)
abbrev argW2 (c : Dev nD) : SW2.Idx → EReal := m ((c.tc : Thread nD τ).loc main_arg4)
abbrev argB2 (c : Dev nD) : SB2.Idx → EReal := m ((c.tc : Thread nD τ).loc main_arg5)

/-- Row scores of the core's arguments. -/
abbrev sc (c : Dev nD) : Fin 200000 → EReal := score (argX m c) (argW1 m c) (argB1 m c) (argW2 m c) (argB2 m c)
/-- Their exponentials. -/
abbrev esc (c : Dev nD) : Fin 200000 → EReal := fun n => Ideal.exp (sc m c n)
/-- Column `j` of the rows weighted by them. -/
abbrev wsc (c : Dev nD) (j : Fin 512) : Fin 200000 → EReal := fun n => argX m c (ix2 n j) * Ideal.exp (sc m c n)

/-- A grid point as a block number: the grid has 100 points, point `t` reads block `t`. -/
abbrev pt (t : Fin cfg0.N) : Fin 100 := ⟨t.val, lt_of_lt_of_eq t.isLt N_0⟩

/-- The half of the rows a grid point works in. -/
abbrev half (t : Fin cfg0.N) : Fin 2 := ⟨t.val / 50, by have := lt_of_lt_of_eq t.isLt N_0; omega⟩

end Cert.KernelIdeal.Val

end
-- ==== Proof.KPayload.lean ====
import proofs.«427669_j44916767981572_2_alg».proof.Proof.Gen.KernelIdeal.Frame
import proofs.«427669_j44916767981572_2_alg».proof.Proof.Spec
import proofs.«427669_j44916767981572_2_alg».proof.Proof.LibDot2
import Idealize.ShloMosaic.Lib.Pipeline.Value
import Idealize.ShloMosaic.Lib.ValueLayout
import Idealize.ShloMosaic.Lib.StableHlo.Run
import Idealize.ShloMosaic.Lib.Tactic
import proofs.«427669_j44916767981572_2_alg».proof.Proof.KArgs

set_option maxRecDepth 16384

noncomputable section

open Idealize.ShloMosaic Idealize.ShloMosaic.TcCoe Idealize.SL.Sem Idealize.ShloMosaic.ValueIdx
open Idealize.ShloMosaic.Pipeline (Dat)
open scoped BigOperators

/-! What one grid point adds: the body's three products with the one-hot membership matrix, read at an index. -/

namespace Cert.KernelIdeal.Val

open Cert.KernelIdeal Cert.KernelIdeal.Gen Cert.AttnPool

variable (m : (ℓ : Loc nD τ sig) → Buf (Elt Ideal) ℓ)

/-! ## Layout and word facts used below -/

/-- A column `[a, 1]` broadcast to `[a, b]` reads, at `(p, q)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The membership test as a number: the equality bit of two words, widened and read as a signed
    integer, is `1` when the words agree and `0` otherwise. -/
private theorem onehot_word (a b : BitVec 32) :
    FloatOps.sitofp (F := Ideal) .f32 ((IntOp.cmpi .eq a b).setWidth 32) = if a = b then (1 : EReal) else 0 := by
  by_cases h : a = b
  · have e : IntOp.cmpi .eq a b = 1#1 := by simp [IntOp.cmpi, h]
    rw [if_pos h, e]
    show ((((1#1 : BitVec 1).setWidth 32).toInt : ℝ) : EReal) = 1
    rw [show ((1#1 : BitVec 1).setWidth 32).toInt = 1 from by decide]
    simp
  · have e : IntOp.cmpi .eq a b = 0#1 := by
      show BitVec.ofBool (a == b) = 0#1
      rw [beq_eq_false_iff_ne.mpr h]; rfl
    rw [if_neg h, e]
    show ((((0#1 : BitVec 1).setWidth 32).toInt : ℝ) : EReal) = 0
    rw [show ((0#1 : BitVec 1).setWidth 32).toInt = 0 from by decide]
    simp

/-! ## The three products' dimension numbers -/

private theorem mm_xw (l : FVec Ideal S2000x512 .bf16) (r : FVec Ideal S512x256 .bf16) (p : Fin 2000) (q : Fin 256) :
    (matmul dot_S2000x512_S512x256_S2000x256_1_0_0_1_n_n none l r (constant (F := Ideal) S2000x256 .f32 0x00000000#32) : S2000x256.Idx → EReal) (ix2 p q)
      = ∑ k : Fin 512, l (ix2 p k) * r (ix2 k q) :=
  Dot2.matmul_zero_mm_apply Facts₀.dot_S2000x512_S512x256_S2000x256_1_0_0_1_n_n_wf none l r p q

private theorem mm_hw (l : FVec Ideal S2000x256 .bf16) (r : FVec Ideal S256x1 .bf16) (p : Fin 2000) (q : Fin 1) :
    (matmul dot_S2000x256_S256x1_S2000x1_1_0_0_1_n_n none l r (constant (F := Ideal) S2000x1 .f32 0x00000000#32) : S2000x1.Idx → EReal) (ix2 p q)
      = ∑ k : Fin 256, l (ix2 p k) * r (ix2 k q) :=
  Dot2.matmul_zero_mm_apply Facts₀.dot_S2000x256_S256x1_S2000x1_1_0_0_1_n_n_wf none l r p q

private theorem tm_col (l : FVec Ideal S2000x256 .f32) (r : FVec Ideal S2000x1 .f32) (p : Fin 256) (q : Fin 1) :
    (matmul dot_S2000x256_S2000x1_S256x1_0_0_1_1_n_n (some .fp32) l r (constant (F := Ideal) S256x1 .f32 0x00000000#32) : S256x1.Idx → EReal) (ix2 p q)
      = ∑ k : Fin 2000, l (ix2 k p) * r (ix2 k q) :=
  Dot2.matmul_zero_tm_apply Facts₀.dot_S2000x256_S2000x1_S256x1_0_0_1_1_n_n_wf (some .fp32) l r p q

private theorem tm_rows (l : FVec Ideal S2000x256 .bf16) (r : FVec Ideal S2000x512 .bf16) (p : Fin 256) (q : Fin 512) :
    (matmul dot_S2000x256_S2000x512_S256x512_0_0_1_1_n_n none l r (constant (F := Ideal) S256x512 .f32 0x00000000#32) : S256x512.Idx → EReal) (ix2 p q)
      = ∑ k : Fin 2000, l (ix2 k p) * r (ix2 k q) :=
  Dot2.matmul_zero_tm_apply Facts₀.dot_S2000x256_S2000x512_S256x512_0_0_1_1_n_n_wf none l r p q

/-! ## One block's scores, and the membership matrix -/

/-- Row `r`'s score inside a block: the two-layer scorer applied to that row of the block. -/
private def rowScore (x0 : Vec Ideal S2000x512 .f32) (x2 : Vec Ideal S512x256 .f32) (x3 : Vec Ideal S1x256 .f32)
    (x4 : Vec Ideal S256x1 .f32) (x5 : Vec Ideal S1x1 .f32) (r : Fin 2000) : EReal :=
  (∑ h : Fin 256, Ideal.tanh ((∑ d : Fin 512, (x0 (ix2 r d) : EReal) * x2 (ix2 d h)) + x3 (ix2 0 h)) * x4 (ix2 h 0)) + x5 (ix2 0 0)

/-- The block's score column at row `r`: the format changes are the identity on extended reals, the
    two products are plain sums, and the biases are read from their one row. -/
private theorem pay10_apply (x0 : Vec Ideal S2000x512 .f32) (x2 : Vec Ideal S512x256 .f32) (x3 : Vec Ideal S1x256 .f32)
    (x4 : Vec Ideal S256x1 .f32) (x5 : Vec Ideal S1x1 .f32) (r : Fin 2000) (z : Fin 1) :
    (k0_pay10 (F := Ideal) x0 x2 x3 x4 x5 : S2000x1.Idx → EReal) (ix2 r z) = rowScore x0 x2 x3 x4 x5 r := by
  obtain rfl : z = 0 := Subsingleton.elim _ _
  unfold k0_pay10 rowScore
  rw [shapeCast_self, shapeCast_self, addf_apply, mm_hw, broadcastTo_1b_ab_apply]
  congr 1
  refine Finset.sum_congr rfl fun h _ => ?_
  rw [truncf_apply, truncf_apply]
  show Ideal.tanh (addf (F := Ideal) (s := S2000x256) (φ := .f32) _ _ (ix2 r h)) * _ = _
  rw [addf_apply, mm_xw, broadcastTo_1b_ab_apply]
  rfl

/-- The exponentiated score column at row `r`. -/
private theorem pay11_apply (x0 : Vec Ideal S2000x512 .f32) (x2 : Vec Ideal S512x256 .f32) (x3 : Vec Ideal S1x256 .f32)
    (x4 : Vec Ideal S256x1 .f32) (x5 : Vec Ideal S1x1 .f32) (r : Fin 2000) (z : Fin 1) :
    (k0_pay11 (F := Ideal) x0 x2 x3 x4 x5 : S2000x1.Idx → EReal) (ix2 r z) = Ideal.exp (rowScore x0 x2 x3 x4 x5 r) := by
  unfold k0_pay11
  show Ideal.exp (k0_pay10 (F := Ideal) x0 x2 x3 x4 x5 (ix2 r z)) = _
  rw [pay10_apply]

/-- The membership matrix at `(r, k)`: `1` when row `r`'s id word is `k`'s, else `0`. -/
private theorem pay14_apply (x1 : Vec Ideal S2000x1 .i32) (r : Fin 2000) (k : Fin 256) :
    (k0_pay14 (F := Ideal) x1 : S2000x256.Idx → EReal) (ix2 r k)
      = if x1 (ix2 r 0) = BitVec.ofNat 32 k.val then (1 : EReal) else 0 := by
  unfold k0_pay14 k0_pay12
  dsimp only
  rw [sitofp_apply, extui_apply]
  show FloatOps.sitofp (F := Ideal) .f32 ((IntOp.cmpi .eq (broadcastTo S2000x256 _ _ (ix2 r k)) (iota .tc S2000x256 32 [1] _ (ix2 r k))).setWidth 32) = _
  rw [broadcastTo_a1_ab_apply, shapeCast_self, iota_single_apply, onehot_word]

/-- The same matrix after its format change, which is the identity on extended reals. -/
private theorem pay13_apply (x1 : Vec Ideal S2000x1 .i32) (r : Fin 2000) (k : Fin 256) :
    (k0_pay13 (F := Ideal) x1 : S2000x256.Idx → EReal) (ix2 r k)
      = if x1 (ix2 r 0) = BitVec.ofNat 32 k.val then (1 : EReal) else 0 := by
  unfold k0_pay13 k0_pay12
  dsimp only
  rw [truncf_apply, sitofp_apply, extui_apply]
  show FloatOps.sitofp (F := Ideal) .f32 ((IntOp.cmpi .eq (broadcastTo S2000x256 _ _ (ix2 r k)) (iota .tc S2000x256 32 [1] _ (ix2 r k))).setWidth 32) = _
  rw [broadcastTo_a1_ab_apply, shapeCast_self, iota_single_apply, onehot_word]

/-! ## The three products with the membership matrix, over any blocks -/

/-- Segment `k`'s scores among a block's rows: the product with the membership matrix read transposed. -/
private theorem pay15_gen (x0 : Vec Ideal S2000x512 .f32) (x2 : Vec Ideal S512x256 .f32) (x3 : Vec Ideal S1x256 .f32)
    (x4 : Vec Ideal S256x1 .f32) (x5 : Vec Ideal S1x1 .f32) (x1 : Vec Ideal S2000x1 .i32) (k : Fin 256) (z : Fin 1) :
    (k0_pay15 (F := Ideal) x0 x2 x3 x4 x5 x1 : S256x1.Idx → EReal) (ix2 k z)
      = ∑ r : Fin 2000, if x1 (ix2 r 0) = BitVec.ofNat 32 k.val then rowScore x0 x2 x3 x4 x5 r else 0 := by
  unfold k0_pay15
  rw [tm_col]
  refine Finset.sum_congr rfl fun r _ => ?_
  rw [pay14_apply, pay10_apply, ite_mul, one_mul, zero_mul]

/-- The same of the exponentiated scores. -/
private theorem pay16_gen (x0 : Vec Ideal S2000x512 .f32) (x2 : Vec Ideal S512x256 .f32) (x3 : Vec Ideal S1x256 .f32)
    (x4 : Vec Ideal S256x1 .f32) (x5 : Vec Ideal S1x1 .f32) (x1 : Vec Ideal S2000x1 .i32) (k : Fin 256) (z : Fin 1) :
    (k0_pay16 (F := Ideal) x0 x2 x3 x4 x5 x1 : S256x1.Idx → EReal) (ix2 k z)
      = ∑ r : Fin 2000, if x1 (ix2 r 0) = BitVec.ofNat 32 k.val then Ideal.exp (rowScore x0 x2 x3 x4 x5 r) else 0 := by
  unfold k0_pay16
  rw [tm_col]
  refine Finset.sum_congr rfl fun r _ => ?_
  rw [pay14_apply, pay11_apply, ite_mul, one_mul, zero_mul]

/-- The weighted rows: what was there, plus the product of the membership matrix (read transposed) with
    the block's rows scaled by their weights. -/
private theorem pay3_gen (x0 : Vec Ideal S2000x512 .f32) (v21 : FVec Ideal S2000x1 .f32) (v29 : FVec Ideal S2000x256 .bf16)
    (prev : Vec Ideal S256x512 .f32) (k : Fin 256) (j : Fin 512) :
    (k0_pay3 (F := Ideal) x0 v21 v29 prev : S256x512.Idx → EReal) (ix2 k j)
      = (prev (ix2 k j) : EReal) + ∑ r : Fin 2000, v29 (ix2 r k) * ((x0 (ix2 r j) : EReal) * v21 (ix2 r 0)) := by
  unfold k0_pay3
  rw [shapeCast_self, addf_apply, tm_rows]
  congr 1
  refine Finset.sum_congr rfl fun r _ => ?_
  rw [truncf_apply, mulf_apply, broadcastTo_a1_ab_apply]

/-! ## The blocks a point reads, at an index

Point `t` reads block `t` of the rows (2000 of them, all 512 columns) and of the row ids, and the
whole of the two weight arrays and of the two biases; the ids and the biases arrive reshaped to a
column, a row and a `1 × 1` array. -/

private theorem index0 : ∀ t : Fin grid0.N, win0_0.index t (0 : Fin 2) = t.val ∧ win0_0.index t 1 = 0 := by decide +kernel
private theorem index1 : ∀ t : Fin grid0.N, win0_1.index t (0 : Fin 2) = t.val ∧ win0_1.index t 1 = 0 := by decide +kernel
private theorem index2 : ∀ t : Fin grid0.N, win0_2.index t (0 : Fin 2) = 0 ∧ win0_2.index t 1 = 0 := by decide +kernel
private theorem index3 : ∀ t : Fin grid0.N, win0_3.index t (0 : Fin 2) = 0 ∧ win0_3.index t 1 = 0 := by decide +kernel
private theorem index4 : ∀ t : Fin grid0.N, win0_4.index t (0 : Fin 2) = 0 ∧ win0_4.index t 1 = 0 := by decide +kernel
private theorem index5 : ∀ t : Fin grid0.N, win0_5.index t (0 : Fin 2) = 0 ∧ win0_5.index t 1 = 0 := by decide +kernel

/-- The rows' block at `(r, d)` is the array at row `2000 t + r`. -/
private theorem blk0_apply (c : Dev nD) (t : Fin cfg0.N) (r : Fin 2000) (d : Fin 512) :
    (iblk m c 0 t : Vec Ideal S2000x512 .f32) (ix2 r d) = argX m c (ix2 (blockRow (pt t) r) d) := by
  have hi := index0 t
  unfold iblk
  rw [View.read_apply]
  show V m c main_arg0 _ = _
  rw [V_main_arg0]
  show m ((c.tc : Thread nD τ).loc main_arg0) _ = m ((c.tc : Thread nD τ).loc main_arg0) _
  congr 1
  funext a
  apply Fin.ext
  match a with
  | ⟨0, _⟩ => show win0_0.index t 0 * 2000 + 1 * r.val = t.val * 2000 + r.val; rw [hi.1]; omega
  | ⟨1, _⟩ => show win0_0.index t 1 * 512 + 1 * d.val = d.val; rw [hi.2]; omega

/-- The first weight array's block is the whole array. -/
private theorem blk2_apply (c : Dev nD) (t : Fin cfg0.N) (d : Fin 512) (h : Fin 256) :
    (iblk m c 2 t : Vec Ideal S512x256 .f32) (ix2 d h) = argW1 m c (ix2 d h) := by
  have hi := index2 t
  unfold iblk
  rw [View.read_apply]
  show V m c main_arg2 _ = _
  rw [V_main_arg2]
  show m ((c.tc : Thread nD τ).loc main_arg2) _ = m ((c.tc : Thread nD τ).loc main_arg2) _
  congr 1
  funext a
  apply Fin.ext
  match a with
  | ⟨0, _⟩ => show win0_2.index t 0 * 512 + 1 * d.val = d.val; rw [hi.1]; omega
  | ⟨1, _⟩ => show win0_2.index t 1 * 256 + 1 * h.val = h.val; rw [hi.2]; omega

/-- The second weight array's block is the whole array. -/
private theorem blk4_apply (c : Dev nD) (t : Fin cfg0.N) (h : Fin 256) (z : Fin 1) :
    (iblk m c 4 t : Vec Ideal S256x1 .f32) (ix2 h z) = argW2 m c (ix2 h z) := by
  have hi := index4 t
  unfold iblk
  rw [View.read_apply]
  show V m c main_arg4 _ = _
  rw [V_main_arg4]
  show m ((c.tc : Thread nD τ).loc main_arg4) _ = m ((c.tc : Thread nD τ).loc main_arg4) _
  congr 1
  funext a
  apply Fin.ext
  match a with
  | ⟨0, _⟩ => show win0_4.index t 0 * 256 + 1 * h.val = h.val; rw [hi.1]; omega
  | ⟨1, _⟩ => show win0_4.index t 1 * 1 + 1 * z.val = z.val; rw [hi.2]; omega

/-- The row ids when the kernel starts: the id vector reshaped to a column. -/
private theorem V_ids (c : Dev nD) :
    (V m c main_v0 : S200000x1.Idx → BitVec 32)
      = shapeCast S200000x1 (m ((c.tc : Thread nD τ).loc main_arg1)) Facts₀.shapeCasts_S200000_S200000x1 := by
  show StableHlo.after hostOps0 (fun b => m (c, b)) (Proc.devRef .tc main_v0) = _
  after_results
  rfl

/-- The first bias when the kernel starts: the bias vector reshaped to a row. -/
private theorem V_b1 (c : Dev nD) :
    (V m c main_v1 : S1x256.Idx → EReal)
      = shapeCast S1x256 (m ((c.tc : Thread nD τ).loc main_arg3)) Facts₀.shapeCasts_S256_S1x256 := by
  show StableHlo.after hostOps0 (fun b => m (c, b)) (Proc.devRef .tc main_v1) = _
  after_results
  rfl

/-- The second bias when the kernel starts: the one-element vector reshaped to `1 × 1`. -/
private theorem V_b2 (c : Dev nD) :
    (V m c main_v2 : S1x1.Idx → EReal)
      = shapeCast S1x1 (m ((c.tc : Thread nD τ).loc main_arg5)) Facts₀.shapeCasts_S1_S1x1 := by
  show StableHlo.after hostOps0 (fun b => m (c, b)) (Proc.devRef .tc main_v2) = _
  after_results
  rfl

/-- The ids' block at row `r` is the id of row `2000 t + r`. -/
private theorem blk1_apply (c : Dev nD) (t : Fin cfg0.N) (r : Fin 2000) (z : Fin 1) :
    (iblk m c 1 t : Vec Ideal S2000x1 .i32) (ix2 r z) = argSeg m c (ix1 (blockRow (pt t) r)) := by
  have hi := index1 t
  have hz : z.val = 0 := by omega
  unfold iblk
  rw [View.read_apply]
  show V m c main_v0 _ = _
  rw [V_ids]
  refine shapeCast_apply _ _ _ (ix1 (blockRow (pt t) r)) ?_
  rw [Shape.rowMajor_val_one, Shape.rowMajor_val_two]
  show t.val * 2000 + r.val = (win0_1.index t 0 * 2000 + 1 * r.val) * 1 + (win0_1.index t 1 * 1 + 1 * z.val)
  rw [hi.1, hi.2, hz]; omega

/-- The first bias's block at `(0, h)` is the bias at `h`. -/
private theorem blk3_apply (c : Dev nD) (t : Fin cfg0.N) (u : Fin 1) (h : Fin 256) :
    (iblk m c 3 t : Vec Ideal S1x256 .f32) (ix2 u h) = argB1 m c (ix1 h) := by
  have hi := index3 t
  have hu : u.val = 0 := by omega
  unfold iblk
  rw [View.read_apply]
  show V m c main_v1 _ = _
  rw [V_b1]
  refine shapeCast_apply _ _ _ (ix1 h) ?_
  rw [Shape.rowMajor_val_one, Shape.rowMajor_val_two]
  show h.val = (win0_3.index t 0 * 1 + 1 * u.val) * 256 + (win0_3.index t 1 * 256 + 1 * h.val)
  rw [hi.1, hi.2, hu]; omega

/-- The second bias's block is the bias. -/
private theorem blk5_apply (c : Dev nD) (t : Fin cfg0.N) (u z : Fin 1) :
    (iblk m c 5 t : Vec Ideal S1x1 .f32) (ix2 u z) = argB2 m c (ix1 0) := by
  have hi := index5 t
  have hu : u.val = 0 := by omega
  have hz : z.val = 0 := by omega
  unfold iblk
  rw [View.read_apply]
  show V m c main_v2 _ = _
  rw [V_b2]
  refine shapeCast_apply _ _ _ (ix1 0) ?_
  rw [Shape.rowMajor_val_one, Shape.rowMajor_val_two]
  show (0 : Fin 1).val = (win0_5.index t 0 * 1 + 1 * u.val) * 1 + (win0_5.index t 1 * 1 + 1 * z.val)
  rw [hi.1, hi.2, hu, hz]; rfl

/-! ## One grid point's three contributions -/

/-- A block row's score is the score of the row of the whole array that it is. -/
private theorem rowScore_blk (c : Dev nD) (t : Fin cfg0.N) (r : Fin 2000) :
    rowScore (iblk m c 0 t) (iblk m c 2 t) (iblk m c 3 t) (iblk m c 4 t) (iblk m c 5 t) r = sc m c (blockRow (pt t) r) := by
  unfold rowScore sc score
  simp only [blk0_apply, blk2_apply, blk3_apply, blk4_apply, blk5_apply]

/-- The point's contribution to A: segment `k`'s scores among the block's 2000 rows. -/
theorem pay15_apply (c : Dev nD) (t : Fin cfg0.N) (k : Fin 256) (z : Fin 1) :
    (k0_pay15 (F := Ideal) (iblk m c 0 t) (iblk m c 2 t) (iblk m c 3 t) (iblk m c 4 t) (iblk m c 5 t) (iblk m c 1 t) : S256x1.Idx → EReal) (ix2 k z)
      = partSum (argSeg m c) (sc m c) (pt t) k := by
  rw [pay15_gen]
  unfold partSum
  refine Finset.sum_congr rfl fun r _ => ?_
  refine if_congr ?_ (rowScore_blk m c t r) rfl
  rw [blk1_apply]
  exact Iff.rfl

/-- The point's contribution to B. -/
theorem pay16_apply (c : Dev nD) (t : Fin cfg0.N) (k : Fin 256) (z : Fin 1) :
    (k0_pay16 (F := Ideal) (iblk m c 0 t) (iblk m c 2 t) (iblk m c 3 t) (iblk m c 4 t) (iblk m c 5 t) (iblk m c 1 t) : S256x1.Idx → EReal) (ix2 k z)
      = partSum (argSeg m c) (esc m c) (pt t) k := by
  rw [pay16_gen]
  unfold partSum
  refine Finset.sum_congr rfl fun r _ => ?_
  refine if_congr ?_ (congrArg Ideal.exp (rowScore_blk m c t r)) rfl
  rw [blk1_apply]
  exact Iff.rfl

/-- The point's update of C: what was there plus the point's contribution. -/
theorem pay3_apply (c : Dev nD) (t : Fin cfg0.N) (prev : Vec Ideal S256x512 .f32) (k : Fin 256) (j : Fin 512) :
    (k0_pay3 (F := Ideal) (iblk m c 0 t) (k0_pay11 (iblk m c 0 t) (iblk m c 2 t) (iblk m c 3 t) (iblk m c 4 t) (iblk m c 5 t))
        (k0_pay13 (iblk m c 1 t)) prev : S256x512.Idx → EReal) (ix2 k j)
      = (prev (ix2 k j) : EReal) + partSum (argSeg m c) (wsc m c j) (pt t) k := by
  rw [pay3_gen]
  congr 1
  unfold partSum
  refine Finset.sum_congr rfl fun r _ => ?_
  rw [pay13_apply, pay11_apply, ite_mul, one_mul, zero_mul]
  refine if_congr ?_ ?_ rfl
  · rw [blk1_apply]
    exact Iff.rfl
  · rw [blk0_apply, rowScore_blk]

end Cert.KernelIdeal.Val

end
-- ==== Proof.KAccum.lean ====
import proofs.«427669_j44916767981572_2_alg».proof.Proof.Gen.KernelIdeal.Frame
import proofs.«427669_j44916767981572_2_alg».proof.Proof.Spec
import proofs.«427669_j44916767981572_2_alg».proof.Proof.LibDot2
import Idealize.ShloMosaic.Lib.Pipeline.Value
import Idealize.ShloMosaic.Lib.ValueLayout
import Idealize.ShloMosaic.Lib.StableHlo.Run
import Idealize.ShloMosaic.Lib.Tactic
import proofs.«427669_j44916767981572_2_alg».proof.Proof.KArgs
import proofs.«427669_j44916767981572_2_alg».proof.Proof.KPayload

set_option maxRecDepth 16384

noncomputable section

open Idealize.ShloMosaic Idealize.ShloMosaic.TcCoe Idealize.SL.Sem Idealize.ShloMosaic.ValueIdx
open Idealize.ShloMosaic.Pipeline (Dat)
open scoped BigOperators

/-! What the three outputs' staging buffers hold at a point that writes them back: the half's 50 blocks added up.

The grid's 100 points are two halves of 50. Within a half the three accumulators (per segment: the sum of scores, the sum
of exponentiated scores, the sum of rows weighted by their exponentiated scores) are zeroed at the half's first point, each
point adds its block's part, and the half's last point copies them out. So after position `r` of a half an accumulator
holds the parts of blocks `0 … r` of that half, and what is copied out at position 49 is the half's whole part. -/

namespace Cert.KernelIdeal.Val

open Cert.KernelIdeal Cert.KernelIdeal.Gen Cert.AttnPool

namespace Accum

/-! ## What one point leaves in each buffer, as a function of the blocks it reads and of what it found

Each buffer is written through one store of its whole extent at zero offsets, so it ends holding that store's value; a
value read back from a buffer after such a store is the stored value. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S2000x512 .f32) (harg2 : arg2.IsWhole)
  (arg3 : Memref sig .tc .vmem S2000x1 .i32) (harg3 : arg3.IsWhole)
  (arg4 : Memref sig .tc .vmem S512x256 .f32) (harg4 : arg4.IsWhole)
  (arg5 : Memref sig .tc .vmem S1x256 .f32) (harg5 : arg5.IsWhole)
  (arg6 : Memref sig .tc .vmem S256x1 .f32) (harg6 : arg6.IsWhole)
  (arg7 : Memref sig .tc .vmem S1x1 .f32) (harg7 : arg7.IsWhole)
  (arg8 : Memref sig .tc .vmem S1x256x1 .f32) (harg8 : arg8.IsWhole)
  (arg9 : Memref sig .tc .vmem S1x256x1 .f32) (harg9 : arg9.IsWhole)
  (arg10 : Memref sig .tc .vmem S1x256x512 .f32) (harg10 : arg10.IsWhole)
  (arg11 : Memref sig .tc .vmem S256x1 .f32) (harg11 : arg11.IsWhole)
  (arg12 : Memref sig .tc .vmem S256x1 .f32) (harg12 : arg12.IsWhole)
  (arg13 : Memref sig .tc .vmem S256x512 .f32) (harg13 : arg13.IsWhole)
  (x0 : Vec F S2000x512 .f32) (x1 : Vec F S2000x1 .i32) (x2 : Vec F S512x256 .f32) (x3 : Vec F S1x256 .f32) (x4 : Vec F S256x1 .f32) (x5 : Vec F S1x1 .f32)
  (xs0 : Vec F S256x1 .f32) (xs1 : Vec F S256x1 .f32) (xs2 : Vec F S256x512 .f32)

/-- A point that opens a half leaves in the first accumulator the zero block plus the point's score sums: the reset is stored, read back, and the update stored over it. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay1 (k0_pay15 x0 x2 x3 x4 x5 x1) k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- Likewise the second accumulator: the zero block plus the point's sums of exponentials. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay16 x0 x2 x3 x4 x5 x1) k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- Likewise the third accumulator: the zero block plus the point's weighted row sums. -/
theorem sA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay3 x0 (k0_pay11 x0 x2 x3 x4 x5) (k0_pay13 x1) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S256x512) hz2, View.readCov_unit_zero (S := S256x512) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- A point inside a half leaves in the first accumulator what it held (`xs0`) plus the point's score sums. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay1 (k0_pay15 x0 x2 x3 x4 x5 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- Likewise the second accumulator. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay2 (k0_pay16 x0 x2 x3 x4 x5 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- Likewise the third accumulator. -/
theorem sB2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay3 x0 (k0_pay11 x0 x2 x3 x4 x5) (k0_pay13 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- A point that closes a half updates the first accumulator in the same way … -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay1 (k0_pay15 x0 x2 x3 x4 x5 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- … and the second … -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay2 (k0_pay16 x0 x2 x3 x4 x5 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- … and the third; -/
theorem sC2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay3 x0 (k0_pay11 x0 x2 x3 x4 x5) (k0_pay13 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3]

/-- and it copies the updated first accumulator, read back after its update, into the first output's block under one more leading axis, -/
theorem oC6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay4 (k0_pay1 (k0_pay15 x0 x2 x3 x4 x5 x1) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3,
    View.readCov_unit_zero (S := S256x1) _ hz2]

/-- the updated second accumulator into the second output's block, -/
theorem oC7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay5 (k0_pay2 (k0_pay16 x0 x2 x3 x4 x5 x1) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3,
    View.readCov_unit_zero (S := S256x1) _ hz2]

/-- and the updated third accumulator into the third output's block. -/
theorem oC8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay6 (k0_pay3 x0 (k0_pay11 x0 x2 x3 x4 x5) (k0_pay13 x1) xs2) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2000x512) hz2, View.ld_unit_zero (S := S2000x1) hz2, View.ld_unit_zero (S := S512x256) hz2,
    View.ld_unit_zero (S := S1x256) hz2, View.ld_unit_zero (S := S256x1) hz2, View.ld_unit_zero (S := S1x1) hz2,
    View.ld_unit_zero (S := S256x512) hz2, View.ld_unit_zero (S := S1x256x1) hz3, View.ld_unit_zero (S := S1x256x512) hz3,
    View.readCov_unit_zero (S := S256x512) _ hz2]

end Pieces

variable (m : (ℓ : Loc nD τ sig) → Buf (Elt Ideal) ℓ)

/-! ## The accumulators after each point -/

/-- The first accumulator (per segment, the scores added so far) after point `n`. -/
abbrev accA (c : Dev nD) (n : ℕ) (h : n < cfg0.N) : Vec Ideal S256x1 .f32 := (outsAt0 (F := Ideal) m c n h).2.2.2.1
/-- The second accumulator (the exponentiated scores added so far) after point `n`. -/
abbrev accB (c : Dev nD) (n : ℕ) (h : n < cfg0.N) : Vec Ideal S256x1 .f32 := (outsAt0 (F := Ideal) m c n h).2.2.2.2.1
/-- The third accumulator (the weighted rows added so far) after point `n`. -/
abbrev accC (c : Dev nD) (n : ℕ) (h : n < cfg0.N) : Vec Ideal S256x512 .f32 := (outsAt0 (F := Ideal) m c n h).2.2.2.2.2

/-- At a point that opens a half (position 0 of its 50) the accumulator is reset and the point's part added. -/
theorem accA_reset (c : Dev nD) (t : Fin cfg0.N) (h0 : t.val % 50 = 0) :
    accA m c t.val t.isLt = k0_pay1 (k0_pay15 (iblk m c 0 t) (iblk m c 2 t) (iblk m c 3 t) (iblk m c 4 t) (iblk m c 5 t) (iblk m c 1 t)) (k0_pay7 (F := Ideal)) := by
  have h1 : ¬t.val % 50 = 49 := by omega
  show (outsAt0 m c t.val t.isLt).2.2.2.1 = _
  rw [outsAt0_A m c t h0 h1]
  dsimp only
  exact sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- At every other point the point's part is added to what the point before left. -/
theorem accA_step (c : Dev nD) (t : Fin cfg0.N) (h0 : ¬t.val % 50 = 0) :
    accA m c t.val t.isLt = k0_pay1 (k0_pay15 (iblk m c 0 t) (iblk m c 2 t) (iblk m c 3 t) (iblk m c 4 t) (iblk m c 5 t) (iblk m c 1 t)) (accA m c (t.val - 1) (Nat.lt_of_le_of_lt (Nat.sub_le _ _) t.isLt)) := by
  show (outsAt0 m c t.val t.isLt).2.2.2.1 = _
  by_cases h1 : t.val % 50 = 49
  · rw [outsAt0_C m c t h0 h1]
    dsimp only
    exact sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
  · rw [outsAt0_B m c t h0 h1]
    dsimp only
    exact sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- At a point that opens a half (position 0 of its 50) the accumulator is reset and the point's part added. -/
theorem accB_reset (c : Dev nD) (t : Fin cfg0.N) (h0 : t.val % 50 = 0) :
    accB m c t.val t.isLt = k0_pay2 (k0_pay16 (iblk m c 0 t) (iblk m c 2 t) (iblk m c 3 t) (iblk m c 4 t) (iblk m c 5 t) (iblk m c 1 t)) (k0_pay8 (F := Ideal)) := by
  have h1 : ¬t.val % 50 = 49 := by omega
  show (outsAt0 m c t.val t.isLt).2.2.2.2.1 = _
  rw [outsAt0_A m c t h0 h1]
  dsimp only
  exact sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- At every other point the point's part is added to what the point before left. -/
theorem accB_step (c : Dev nD) (t : Fin cfg0.N) (h0 : ¬t.val % 50 = 0) :
    accB m c t.val t.isLt = k0_pay2 (k0_pay16 (iblk m c 0 t) (iblk m c 2 t) (iblk m c 3 t) (iblk m c 4 t) (iblk m c 5 t) (iblk m c 1 t)) (accB m c (t.val - 1) (Nat.lt_of_le_of_lt (Nat.sub_le _ _) t.isLt)) := by
  show (outsAt0 m c t.val t.isLt).2.2.2.2.1 = _
  by_cases h1 : t.val % 50 = 49
  · rw [outsAt0_C m c t h0 h1]
    dsimp only
    exact sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
  · rw [outsAt0_B m c t h0 h1]
    dsimp only
    exact sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- At a point that opens a half (position 0 of its 50) the accumulator is reset and the point's part added. -/
theorem accC_reset (c : Dev nD) (t : Fin cfg0.N) (h0 : t.val % 50 = 0) :
    accC m c t.val t.isLt = k0_pay3 (iblk m c 0 t) (k0_pay11 (iblk m c 0 t) (iblk m c 2 t) (iblk m c 3 t) (iblk m c 4 t) (iblk m c 5 t)) (k0_pay13 (iblk m c 1 t)) (k0_pay9 (F := Ideal)) := by
  have h1 : ¬t.val % 50 = 49 := by omega
  show (outsAt0 m c t.val t.isLt).2.2.2.2.2 = _
  rw [outsAt0_A m c t h0 h1]
  dsimp only
  exact sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- At every other point the point's part is added to what the point before left. -/
theorem accC_step (c : Dev nD) (t : Fin cfg0.N) (h0 : ¬t.val % 50 = 0) :
    accC m c t.val t.isLt = k0_pay3 (iblk m c 0 t) (k0_pay11 (iblk m c 0 t) (iblk m c 2 t) (iblk m c 3 t) (iblk m c 4 t) (iblk m c 5 t)) (k0_pay13 (iblk m c 1 t)) (accC m c (t.val - 1) (Nat.lt_of_le_of_lt (Nat.sub_le _ _) t.isLt)) := by
  show (outsAt0 m c t.val t.isLt).2.2.2.2.2 = _
  by_cases h1 : t.val % 50 = 49
  · rw [outsAt0_C m c t h0 h1]
    dsimp only
    exact sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
  · rw [outsAt0_B m c t h0 h1]
    dsimp only
    exact sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- At a point that closes a half the first output's block is the first accumulator as that point leaves it, under one
    more leading axis. -/
theorem out6_close (c : Dev nD) (t : Fin cfg0.N) (h1 : t.val % 50 = 49) :
    (outsAt0 (F := Ideal) m c t.val t.isLt).1 = k0_pay4 (accA m c t.val t.isLt) := by
  have h0 : ¬t.val % 50 = 0 := by omega
  refine Eq.trans ?_ (congrArg (k0_pay4 (F := Ideal)) (accA_step m c t h0).symm)
  rw [outsAt0_C m c t h0 h1]
  dsimp only
  exact oC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- At a point that closes a half the second output's block is the second accumulator as that point leaves it, under one
    more leading axis. -/
theorem out7_close (c : Dev nD) (t : Fin cfg0.N) (h1 : t.val % 50 = 49) :
    (outsAt0 (F := Ideal) m c t.val t.isLt).2.1 = k0_pay5 (accB m c t.val t.isLt) := by
  have h0 : ¬t.val % 50 = 0 := by omega
  refine Eq.trans ?_ (congrArg (k0_pay5 (F := Ideal)) (accB_step m c t h0).symm)
  rw [outsAt0_C m c t h0 h1]
  dsimp only
  exact oC7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- At a point that closes a half the third output's block is the third accumulator as that point leaves it, under one
    more leading axis. -/
theorem out8_close (c : Dev nD) (t : Fin cfg0.N) (h1 : t.val % 50 = 49) :
    (outsAt0 (F := Ideal) m c t.val t.isLt).2.2.1 = k0_pay6 (accC m c t.val t.isLt) := by
  have h0 : ¬t.val % 50 = 0 := by omega
  refine Eq.trans ?_ (congrArg (k0_pay6 (F := Ideal)) (accC_step m c t h0).symm)
  rw [outsAt0_C m c t h0 h1]
  dsimp only
  exact oC8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-! ## The stored values read at an index -/

/-- The update of the first accumulator at an index: what was there plus the point's part. -/
theorem pay1_at (v35 v37 : Vec Ideal S256x1 .f32) (k : Fin 256) (z : Fin 1) :
    (k0_pay1 (F := Ideal) v35 v37 : S256x1.Idx → EReal) (ix2 k z) = (v37 (ix2 k z) : EReal) + v35 (ix2 k z) :=
  congrFun (shapeCast_self (addf (F := Ideal) (s := S256x1) (φ := .f32) v37 v35) shapeCasts_S256x1_S256x1) (ix2 k z)

/-- The update of the second accumulator at an index. -/
theorem pay2_at (v36 v42 : Vec Ideal S256x1 .f32) (k : Fin 256) (z : Fin 1) :
    (k0_pay2 (F := Ideal) v36 v42 : S256x1.Idx → EReal) (ix2 k z) = (v42 (ix2 k z) : EReal) + v36 (ix2 k z) :=
  congrFun (shapeCast_self (addf (F := Ideal) (s := S256x1) (φ := .f32) v42 v36) shapeCasts_S256x1_S256x1) (ix2 k z)

/-- The reset value of the first accumulator is zero everywhere. -/
theorem pay7_at (k : Fin 256) (z : Fin 1) : (k0_pay7 (F := Ideal) : S256x1.Idx → EReal) (ix2 k z) = 0 :=
  (congrFun (shapeCast_self (broadcast S256x1 (Scalar.ofBits (F := Ideal) .f32 0x00000000#32)) shapeCasts_S256x1_S256x1) (ix2 k z)).trans Ideal.ofBits_zero_f32

/-- The reset value of the second accumulator is zero everywhere. -/
theorem pay8_at (k : Fin 256) (z : Fin 1) : (k0_pay8 (F := Ideal) : S256x1.Idx → EReal) (ix2 k z) = 0 :=
  (congrFun (shapeCast_self (broadcast S256x1 (Scalar.ofBits (F := Ideal) .f32 0x00000000#32)) shapeCasts_S256x1_S256x1) (ix2 k z)).trans Ideal.ofBits_zero_f32

/-- The reset value of the third accumulator is zero everywhere. -/
theorem pay9_at (k : Fin 256) (j : Fin 512) : (k0_pay9 (F := Ideal) : S256x512.Idx → EReal) (ix2 k j) = 0 :=
  (congrFun (shapeCast_self (broadcast S256x512 (Scalar.ofBits (F := Ideal) .f32 0x00000000#32)) shapeCasts_S256x512_S256x512) (ix2 k j)).trans Ideal.ofBits_zero_f32

/-- The first output block is the first accumulator under one more leading axis of extent 1. -/
theorem pay4_at (v : Vec Ideal S256x1 .f32) (z0 : Fin 1) (k : Fin 256) (z : Fin 1) :
    (k0_pay4 (F := Ideal) v : S1x256x1.Idx → EReal) (ix3 z0 k z) = v (ix2 k z) := by
  refine (shapeCast_addUnit_apply ![256, 1] v shapeCasts_S256x1_S1x256x1 (ix3 z0 k z)).trans ?_
  congr 1
  funext a
  match a with
  | ⟨0, _⟩ => rfl
  | ⟨1, _⟩ => rfl

/-- The second output block likewise. -/
theorem pay5_at (v : Vec Ideal S256x1 .f32) (z0 : Fin 1) (k : Fin 256) (z : Fin 1) :
    (k0_pay5 (F := Ideal) v : S1x256x1.Idx → EReal) (ix3 z0 k z) = v (ix2 k z) := by
  refine (shapeCast_addUnit_apply ![256, 1] v shapeCasts_S256x1_S1x256x1 (ix3 z0 k z)).trans ?_
  congr 1
  funext a
  match a with
  | ⟨0, _⟩ => rfl
  | ⟨1, _⟩ => rfl

/-- The third output block likewise. -/
theorem pay6_at (v : Vec Ideal S256x512 .f32) (z0 : Fin 1) (k : Fin 256) (j : Fin 512) :
    (k0_pay6 (F := Ideal) v : S1x256x512.Idx → EReal) (ix3 z0 k j) = v (ix2 k j) := by
  refine (shapeCast_addUnit_apply ![256, 512] v shapeCasts_S256x512_S1x256x512 (ix3 z0 k j)).trans ?_
  congr 1
  funext a
  match a with
  | ⟨0, _⟩ => rfl
  | ⟨1, _⟩ => rfl

/-! ## The running sums -/

/-- Block `i` of half `a`, for any natural `i`: only `i < 50` is ever met, and larger numbers wrap around so that a
    running sum can range over `Finset.range`. -/
def hblk (a : Fin 2) (i : ℕ) : Fin 100 := ⟨(a.val * 50 + i) % 100, Nat.mod_lt _ (by norm_num)⟩

theorem hblk_halfBlock (a : Fin 2) (s : Fin 50) : hblk a s.val = halfBlock a s :=
  Fin.ext (by
    show (a.val * 50 + s.val) % 100 = a.val * 50 + s.val
    have := a.isLt; have := s.isLt; omega)

/-- A grid point is block `t % 50` of its half. -/
theorem hblk_pt (t : Fin cfg0.N) : hblk (half t) (t.val % 50) = pt t :=
  Fin.ext (by
    show (t.val / 50 * 50 + t.val % 50) % 100 = t.val
    have := lt_of_lt_of_eq t.isLt N_0; omega)

/-- The part of half `a`'s sum that blocks `0 … r` of the half hold. -/
def run (f : Fin 200000 → EReal) (c : Dev nD) (a : Fin 2) (r : ℕ) (k : Fin 256) : EReal :=
  ∑ i ∈ Finset.range (r + 1), partSum (argSeg m c) f (hblk a i) k

/-- At the point that opens a half the running sum is that point's part alone. -/
theorem run_open (f : Fin 200000 → EReal) (c : Dev nD) (t : Fin cfg0.N) (h0 : t.val % 50 = 0) (k : Fin 256) :
    run m f c (half t) (t.val % 50) k = partSum (argSeg m c) f (pt t) k := by
  have e := hblk_pt t
  rw [h0] at e
  unfold run
  rw [h0, Finset.sum_range_one, e]

/-- At every other point it is the running sum at the point before plus the point's part. -/
theorem run_next (f : Fin 200000 → EReal) (c : Dev nD) (t : Fin cfg0.N) (h0 : ¬t.val % 50 = 0) (k : Fin 256)
    (hp : t.val - 1 < cfg0.N) :
    run m f c (half ⟨t.val - 1, hp⟩) ((t.val - 1) % 50) k + partSum (argSeg m c) f (pt t) k
      = run m f c (half t) (t.val % 50) k := by
  have hN := lt_of_lt_of_eq t.isLt N_0
  have e1 : half ⟨t.val - 1, hp⟩ = half t := Fin.ext (by show (t.val - 1) / 50 = t.val / 50; omega)
  have e2 : t.val % 50 = (t.val - 1) % 50 + 1 := by omega
  have e3 := hblk_pt t
  rw [e2] at e3
  unfold run
  rw [e1, e2, Finset.sum_range_succ _ ((t.val - 1) % 50 + 1), e3]

/-- After the last point of a half the running sum is the half's whole part. -/
theorem run_full (f : Fin 200000 → EReal) (c : Dev nD) (a : Fin 2) (k : Fin 256) :
    run m f c a 49 k = coreSum (argSeg m c) f a k := by
  unfold run coreSum
  rw [Finset.sum_range]
  exact Finset.sum_congr rfl fun s _ => by rw [hblk_halfBlock]

/-! ## The accumulators are the running sums -/

theorem accA_open (c : Dev nD) (t : Fin cfg0.N) (h0 : t.val % 50 = 0) (k : Fin 256) (z : Fin 1) :
    (accA m c t.val t.isLt : S256x1.Idx → EReal) (ix2 k z) = run m (sc m c) c (half t) (t.val % 50) k := by
  refine (congrFun (accA_reset m c t h0) (ix2 k z)).trans ?_
  refine (pay1_at _ _ k z).trans ?_
  rw [pay7_at, pay15_apply m c t k z, zero_add]
  exact (run_open m (sc m c) c t h0 k).symm

theorem accA_next (c : Dev nD) (t : Fin cfg0.N) (h0 : ¬t.val % 50 = 0) (k : Fin 256) (z : Fin 1)
    (ih : (accA m c (t.val - 1) (Nat.lt_of_le_of_lt (Nat.sub_le _ _) t.isLt) : S256x1.Idx → EReal) (ix2 k z)
      = run m (sc m c) c (half ⟨t.val - 1, Nat.lt_of_le_of_lt (Nat.sub_le _ _) t.isLt⟩) ((t.val - 1) % 50) k) :
    (accA m c t.val t.isLt : S256x1.Idx → EReal) (ix2 k z) = run m (sc m c) c (half t) (t.val % 50) k := by
  refine (congrFun (accA_step m c t h0) (ix2 k z)).trans ?_
  refine (pay1_at _ _ k z).trans ?_
  rw [pay15_apply m c t k z, ih]
  exact run_next m (sc m c) c t h0 k _

/-- After point `n` the accumulator holds, for each segment, the parts of the blocks of `n`'s half up to `n`: by induction on the point. -/
theorem accA_eq (c : Dev nD) (k : Fin 256) (z : Fin 1) : ∀ (n : ℕ) (h : n < cfg0.N),
    (accA m c n h : S256x1.Idx → EReal) (ix2 k z) = run m (sc m c) c (half ⟨n, h⟩) (n % 50) k
  | 0, h => accA_open m c ⟨0, h⟩ rfl k z
  | n + 1, h => by
    by_cases h0 : (n + 1) % 50 = 0
    · exact accA_open m c ⟨n + 1, h⟩ h0 k z
    · exact accA_next m c ⟨n + 1, h⟩ h0 k z (accA_eq c k z n (Nat.lt_of_succ_lt h))

theorem accB_open (c : Dev nD) (t : Fin cfg0.N) (h0 : t.val % 50 = 0) (k : Fin 256) (z : Fin 1) :
    (accB m c t.val t.isLt : S256x1.Idx → EReal) (ix2 k z) = run m (esc m c) c (half t) (t.val % 50) k := by
  refine (congrFun (accB_reset m c t h0) (ix2 k z)).trans ?_
  refine (pay2_at _ _ k z).trans ?_
  rw [pay8_at, pay16_apply m c t k z, zero_add]
  exact (run_open m (esc m c) c t h0 k).symm

theorem accB_next (c : Dev nD) (t : Fin cfg0.N) (h0 : ¬t.val % 50 = 0) (k : Fin 256) (z : Fin 1)
    (ih : (accB m c (t.val - 1) (Nat.lt_of_le_of_lt (Nat.sub_le _ _) t.isLt) : S256x1.Idx → EReal) (ix2 k z)
      = run m (esc m c) c (half ⟨t.val - 1, Nat.lt_of_le_of_lt (Nat.sub_le _ _) t.isLt⟩) ((t.val - 1) % 50) k) :
    (accB m c t.val t.isLt : S256x1.Idx → EReal) (ix2 k z) = run m (esc m c) c (half t) (t.val % 50) k := by
  refine (congrFun (accB_step m c t h0) (ix2 k z)).trans ?_
  refine (pay2_at _ _ k z).trans ?_
  rw [pay16_apply m c t k z, ih]
  exact run_next m (esc m c) c t h0 k _

/-- After point `n` the accumulator holds, for each segment, the parts of the blocks of `n`'s half up to `n`: by induction on the point. -/
theorem accB_eq (c : Dev nD) (k : Fin 256) (z : Fin 1) : ∀ (n : ℕ) (h : n < cfg0.N),
    (accB m c n h : S256x1.Idx → EReal) (ix2 k z) = run m (esc m c) c (half ⟨n, h⟩) (n % 50) k
  | 0, h => accB_open m c ⟨0, h⟩ rfl k z
  | n + 1, h => by
    by_cases h0 : (n + 1) % 50 = 0
    · exact accB_open m c ⟨n + 1, h⟩ h0 k z
    · exact accB_next m c ⟨n + 1, h⟩ h0 k z (accB_eq c k z n (Nat.lt_of_succ_lt h))

theorem accC_open (c : Dev nD) (t : Fin cfg0.N) (h0 : t.val % 50 = 0) (k : Fin 256) (j : Fin 512) :
    (accC m c t.val t.isLt : S256x512.Idx → EReal) (ix2 k j) = run m (wsc m c j) c (half t) (t.val % 50) k := by
  refine (congrFun (accC_reset m c t h0) (ix2 k j)).trans ?_
  refine (pay3_apply m c t (k0_pay9 (F := Ideal)) k j).trans ?_
  rw [pay9_at, zero_add]
  exact (run_open m (wsc m c j) c t h0 k).symm

theorem accC_next (c : Dev nD) (t : Fin cfg0.N) (h0 : ¬t.val % 50 = 0) (k : Fin 256) (j : Fin 512)
    (ih : (accC m c (t.val - 1) (Nat.lt_of_le_of_lt (Nat.sub_le _ _) t.isLt) : S256x512.Idx → EReal) (ix2 k j)
      = run m (wsc m c j) c (half ⟨t.val - 1, Nat.lt_of_le_of_lt (Nat.sub_le _ _) t.isLt⟩) ((t.val - 1) % 50) k) :
    (accC m c t.val t.isLt : S256x512.Idx → EReal) (ix2 k j) = run m (wsc m c j) c (half t) (t.val % 50) k := by
  refine (congrFun (accC_step m c t h0) (ix2 k j)).trans ?_
  refine (pay3_apply m c t (accC m c (t.val - 1) (Nat.lt_of_le_of_lt (Nat.sub_le _ _) t.isLt)) k j).trans ?_
  rw [ih]
  exact run_next m (wsc m c j) c t h0 k _

/-- After point `n` the accumulator holds, for each segment, the parts of the blocks of `n`'s half up to `n`: by induction on the point. -/
theorem accC_eq (c : Dev nD) (k : Fin 256) (j : Fin 512) : ∀ (n : ℕ) (h : n < cfg0.N),
    (accC m c n h : S256x512.Idx → EReal) (ix2 k j) = run m (wsc m c j) c (half ⟨n, h⟩) (n % 50) k
  | 0, h => accC_open m c ⟨0, h⟩ rfl k j
  | n + 1, h => by
    by_cases h0 : (n + 1) % 50 = 0
    · exact accC_open m c ⟨n + 1, h⟩ h0 k j
    · exact accC_next m c ⟨n + 1, h⟩ h0 k j (accC_eq c k j n (Nat.lt_of_succ_lt h))

end Accum

variable (m : (ℓ : Loc nD τ sig) → Buf (Elt Ideal) ℓ)

/-! ## The write-back points: each output's block holds its half's whole part -/

theorem out6_flush (c : Dev nD) (t : Fin cfg0.N) (h : t.val % 50 = 49) (z0 : Fin 1) (k : Fin 256) (z : Fin 1) :
    ((outsAt0 (F := Ideal) m c t.val t.isLt).1 : S1x256x1.Idx → EReal) (ix3 z0 k z)
      = coreSum (argSeg m c) (sc m c) (half t) k := by
  refine (congrFun (Accum.out6_close m c t h) (ix3 z0 k z)).trans ?_
  refine (Accum.pay4_at _ z0 k z).trans ?_
  refine (Accum.accA_eq m c k z t.val t.isLt).trans ?_
  rw [h]
  exact Accum.run_full m (sc m c) c (half t) k

theorem out7_flush (c : Dev nD) (t : Fin cfg0.N) (h : t.val % 50 = 49) (z0 : Fin 1) (k : Fin 256) (z : Fin 1) :
    ((outsAt0 (F := Ideal) m c t.val t.isLt).2.1 : S1x256x1.Idx → EReal) (ix3 z0 k z)
      = coreSum (argSeg m c) (esc m c) (half t) k := by
  refine (congrFun (Accum.out7_close m c t h) (ix3 z0 k z)).trans ?_
  refine (Accum.pay5_at _ z0 k z).trans ?_
  refine (Accum.accB_eq m c k z t.val t.isLt).trans ?_
  rw [h]
  exact Accum.run_full m (esc m c) c (half t) k

theorem out8_flush (c : Dev nD) (t : Fin cfg0.N) (h : t.val % 50 = 49) (z0 : Fin 1) (k : Fin 256) (j : Fin 512) :
    ((outsAt0 (F := Ideal) m c t.val t.isLt).2.2.1 : S1x256x512.Idx → EReal) (ix3 z0 k j)
      = coreSum (argSeg m c) (wsc m c j) (half t) k := by
  refine (congrFun (Accum.out8_close m c t h) (ix3 z0 k j)).trans ?_
  refine (Accum.pay6_at _ z0 k j).trans ?_
  refine (Accum.accC_eq m c k j t.val t.isLt).trans ?_
  rw [h]
  exact Accum.run_full m (wsc m c j) c (half t) k

end Cert.KernelIdeal.Val

end
-- ==== Proof.KFinal.lean ====
import proofs.«427669_j44916767981572_2_alg».proof.Proof.Gen.KernelIdeal.Frame
import proofs.«427669_j44916767981572_2_alg».proof.Proof.Spec
import proofs.«427669_j44916767981572_2_alg».proof.Proof.LibDot2
import Idealize.ShloMosaic.Lib.Pipeline.Value
import Idealize.ShloMosaic.Lib.ValueLayout
import Idealize.ShloMosaic.Lib.StableHlo.Run
import Idealize.ShloMosaic.Lib.Tactic
import proofs.«427669_j44916767981572_2_alg».proof.Proof.KArgs
import proofs.«427669_j44916767981572_2_alg».proof.Proof.KAccum

set_option maxRecDepth 16384

noncomputable section

open Idealize.ShloMosaic Idealize.ShloMosaic.TcCoe Idealize.SL.Sem Idealize.ShloMosaic.ValueIdx
open Idealize.ShloMosaic.Pipeline (Dat)
open scoped BigOperators

/-! The three result arrays of the kernel region after the run: entry (a, k, ·) is half `a`'s part of segment `k`'s sum. -/

namespace Cert.KernelIdeal.Val

open Cert.KernelIdeal Cert.KernelIdeal.Gen Cert.AttnPool

variable (m : (ℓ : Loc nD τ sig) → Buf (Elt Ideal) ℓ)

/-- The block index of the three result windows at a grid point, decided once over the grid: point t = a·50 + s writes
    block (a, 0, 0), i.e. its leading coordinate is t / 50 and the others are 0. -/
theorem out_index : ∀ t : Fin cfg0.N,
    (win0_6.index t (0 : Fin 3) = t.val / 50 ∧ win0_6.index t (1 : Fin 3) = 0 ∧ win0_6.index t (2 : Fin 3) = 0)
    ∧ (win0_7.index t (0 : Fin 3) = t.val / 50 ∧ win0_7.index t (1 : Fin 3) = 0 ∧ win0_7.index t (2 : Fin 3) = 0)
    ∧ (win0_8.index t (0 : Fin 3) = t.val / 50 ∧ win0_8.index t (1 : Fin 3) = 0 ∧ win0_8.index t (2 : Fin 3) = 0) :=
  (by decide +kernel : ∀ t : Fin grid0.N, _)

/-- The last point of half `a`: the one that writes the half's accumulators back. -/
abbrev lastPt (a : Fin 2) : Fin cfg0.N := ⟨a.val * 50 + 49, lt_of_lt_of_eq (by have := a.isLt; omega) N_0.symm⟩

/-- Array 6 as one function of its index: half (i 0)'s part of segment (i 1)'s sum of scores. -/
abbrev G6 (c : Dev nD) : S2x256x1.Idx → EReal := fun i => coreSum (argSeg m c) (sc m c) (i 0) (i 1)
/-- Array 7: the same for the exponentiated scores. -/
abbrev G7 (c : Dev nD) : S2x256x1.Idx → EReal := fun i => coreSum (argSeg m c) (esc m c) (i 0) (i 1)
/-- Array 8: the same for column (i 2) of the weighted rows. -/
abbrev G8 (c : Dev nD) : S2x256x512.Idx → EReal := fun i => coreSum (argSeg m c) (wsc m c (i 2)) (i 0) (i 1)

/-- What a writing point writes back to array 6 is its block of `G6`: the block is [1, 256, 1] at block index (t / 50, 0, 0),
    so its entry (·, k, ·) is entry (t / 50, k, ·) of the array, and the buffer holds the half's sum there. -/
theorem flushed6_eq (c : Dev nD) (t : Fin cfg0.N) (hf : (cfg0.win 6).flush t = true) :
    (dats (F := Ideal) m 0 c).flushed 6 t = ((cfg0.win 6).blk t).view.read (Elt Ideal) (G6 m c) := by
  have h49 : t.val % 50 = 49 := (flush0_6 t).mp hf
  obtain ⟨⟨e0, e1, e2⟩, -, -⟩ := out_index t
  show (cfg0.win 6).cut (grid0.coords t) ((dats m 0 c).after 6 t) = _
  rw [after0_6]
  funext y
  obtain ⟨z0, k, z, rfl⟩ : ∃ (z0 : Fin 1) (k : Fin 256) (z : Fin 1), y = ix3 z0 k z := ⟨y 0, y 1, y 2, eq_ix3 y⟩
  rw [View.read_apply]
  refine (out6_flush m c t h49 z0 k z).trans ?_
  have a0 : (((cfg0.win 6).blk t).view.emb (ix3 z0 k z) : S2x256x1.Idx) 0 = half t :=
    Fin.ext (by show win0_6.index t (0 : Fin 3) * 1 + 1 * z0.val = t.val / 50; have := z0.isLt; omega)
  have a1 : (((cfg0.win 6).blk t).view.emb (ix3 z0 k z) : S2x256x1.Idx) 1 = k :=
    Fin.ext (by show win0_6.index t (1 : Fin 3) * 256 + 1 * k.val = k.val; omega)
  show _ = coreSum (argSeg m c) (sc m c) ((((cfg0.win 6).blk t).view.emb (ix3 z0 k z) : S2x256x1.Idx) 0) ((((cfg0.win 6).blk t).view.emb (ix3 z0 k z) : S2x256x1.Idx) 1)
  rw [a0, a1]

/-- The same for array 7. -/
theorem flushed7_eq (c : Dev nD) (t : Fin cfg0.N) (hf : (cfg0.win 7).flush t = true) :
    (dats (F := Ideal) m 0 c).flushed 7 t = ((cfg0.win 7).blk t).view.read (Elt Ideal) (G7 m c) := by
  have h49 : t.val % 50 = 49 := (flush0_7 t).mp hf
  obtain ⟨-, ⟨e0, e1, e2⟩, -⟩ := out_index t
  show (cfg0.win 7).cut (grid0.coords t) ((dats m 0 c).after 7 t) = _
  rw [after0_7]
  funext y
  obtain ⟨z0, k, z, rfl⟩ : ∃ (z0 : Fin 1) (k : Fin 256) (z : Fin 1), y = ix3 z0 k z := ⟨y 0, y 1, y 2, eq_ix3 y⟩
  rw [View.read_apply]
  refine (out7_flush m c t h49 z0 k z).trans ?_
  have a0 : (((cfg0.win 7).blk t).view.emb (ix3 z0 k z) : S2x256x1.Idx) 0 = half t :=
    Fin.ext (by show win0_7.index t (0 : Fin 3) * 1 + 1 * z0.val = t.val / 50; have := z0.isLt; omega)
  have a1 : (((cfg0.win 7).blk t).view.emb (ix3 z0 k z) : S2x256x1.Idx) 1 = k :=
    Fin.ext (by show win0_7.index t (1 : Fin 3) * 256 + 1 * k.val = k.val; omega)
  show _ = coreSum (argSeg m c) (esc m c) ((((cfg0.win 7).blk t).view.emb (ix3 z0 k z) : S2x256x1.Idx) 0) ((((cfg0.win 7).blk t).view.emb (ix3 z0 k z) : S2x256x1.Idx) 1)
  rw [a0, a1]

/-- The same for array 8, whose block is [1, 256, 512]: entry (·, k, j) of the block is entry (t / 50, k, j) of the array. -/
theorem flushed8_eq (c : Dev nD) (t : Fin cfg0.N) (hf : (cfg0.win 8).flush t = true) :
    (dats (F := Ideal) m 0 c).flushed 8 t = ((cfg0.win 8).blk t).view.read (Elt Ideal) (G8 m c) := by
  have h49 : t.val % 50 = 49 := (flush0_8 t).mp hf
  obtain ⟨-, -, e0, e1, e2⟩ := out_index t
  show (cfg0.win 8).cut (grid0.coords t) ((dats m 0 c).after 8 t) = _
  rw [after0_8]
  funext y
  obtain ⟨z0, k, j, rfl⟩ : ∃ (z0 : Fin 1) (k : Fin 256) (j : Fin 512), y = ix3 z0 k j := ⟨y 0, y 1, y 2, eq_ix3 y⟩
  rw [View.read_apply]
  refine (out8_flush m c t h49 z0 k j).trans ?_
  have a0 : (((cfg0.win 8).blk t).view.emb (ix3 z0 k j) : S2x256x512.Idx) 0 = half t :=
    Fin.ext (by show win0_8.index t (0 : Fin 3) * 1 + 1 * z0.val = t.val / 50; have := z0.isLt; omega)
  have a1 : (((cfg0.win 8).blk t).view.emb (ix3 z0 k j) : S2x256x512.Idx) 1 = k :=
    Fin.ext (by show win0_8.index t (1 : Fin 3) * 256 + 1 * k.val = k.val; omega)
  have a2 : (((cfg0.win 8).blk t).view.emb (ix3 z0 k j) : S2x256x512.Idx) 2 = j :=
    Fin.ext (by show win0_8.index t (2 : Fin 3) * 512 + 1 * j.val = j.val; omega)
  show _ = coreSum (argSeg m c) (wsc m c ((((cfg0.win 8).blk t).view.emb (ix3 z0 k j) : S2x256x512.Idx) 2)) ((((cfg0.win 8).blk t).view.emb (ix3 z0 k j) : S2x256x512.Idx) 0) ((((cfg0.win 8).blk t).view.emb (ix3 z0 k j) : S2x256x512.Idx) 1)
  rw [a0, a1, a2]

/-- Every index (a, k, z) of array 6 lies in the block the last point of half `a` writes back: that block is
    rows [a, a + 1) × [0, 256) × [0, 1). -/
theorem cover6 (i : S2x256x1.Idx) : ∃ t : Fin cfg0.N, (cfg0.win 6).flush t = true ∧ i ∈ ((cfg0.win 6).blk t).view.set := by
  have h0 : (i 0).val < 2 := (i 0).isLt
  have h1 : (i 1).val < 256 := (i 1).isLt
  have h2 : (i 2).val < 1 := (i 2).isLt
  obtain ⟨⟨e0, e1, e2⟩, -, -⟩ := out_index (lastPt ⟨(i 0).val, h0⟩)
  have ev : (lastPt ⟨(i 0).val, h0⟩).val = (i 0).val * 50 + 49 := rfl
  refine ⟨lastPt ⟨(i 0).val, h0⟩, (flush0_6 _).mpr (by rw [ev]; omega), ?_⟩
  show i ∈ ((View.whole main_v3_0).slice (win0_6.rect (lastPt ⟨(i 0).val, h0⟩))).set
  rw [View.set_slice_whole, Rect.mem_set_unit]
  intro a
  match a with
  | ⟨0, _⟩ => show win0_6.index (lastPt ⟨(i 0).val, h0⟩) (0 : Fin 3) * 1 ≤ (i 0).val ∧ (i 0).val < win0_6.index (lastPt ⟨(i 0).val, h0⟩) (0 : Fin 3) * 1 + 1; omega
  | ⟨1, _⟩ => show win0_6.index (lastPt ⟨(i 0).val, h0⟩) (1 : Fin 3) * 256 ≤ (i 1).val ∧ (i 1).val < win0_6.index (lastPt ⟨(i 0).val, h0⟩) (1 : Fin 3) * 256 + 256; omega
  | ⟨2, _⟩ => show win0_6.index (lastPt ⟨(i 0).val, h0⟩) (2 : Fin 3) * 1 ≤ (i 2).val ∧ (i 2).val < win0_6.index (lastPt ⟨(i 0).val, h0⟩) (2 : Fin 3) * 1 + 1; omega

theorem cover7 (i : S2x256x1.Idx) : ∃ t : Fin cfg0.N, (cfg0.win 7).flush t = true ∧ i ∈ ((cfg0.win 7).blk t).view.set := by
  have h0 : (i 0).val < 2 := (i 0).isLt
  have h1 : (i 1).val < 256 := (i 1).isLt
  have h2 : (i 2).val < 1 := (i 2).isLt
  obtain ⟨-, ⟨e0, e1, e2⟩, -⟩ := out_index (lastPt ⟨(i 0).val, h0⟩)
  have ev : (lastPt ⟨(i 0).val, h0⟩).val = (i 0).val * 50 + 49 := rfl
  refine ⟨lastPt ⟨(i 0).val, h0⟩, (flush0_7 _).mpr (by rw [ev]; omega), ?_⟩
  show i ∈ ((View.whole main_v3_1).slice (win0_7.rect (lastPt ⟨(i 0).val, h0⟩))).set
  rw [View.set_slice_whole, Rect.mem_set_unit]
  intro a
  match a with
  | ⟨0, _⟩ => show win0_7.index (lastPt ⟨(i 0).val, h0⟩) (0 : Fin 3) * 1 ≤ (i 0).val ∧ (i 0).val < win0_7.index (lastPt ⟨(i 0).val, h0⟩) (0 : Fin 3) * 1 + 1; omega
  | ⟨1, _⟩ => show win0_7.index (lastPt ⟨(i 0).val, h0⟩) (1 : Fin 3) * 256 ≤ (i 1).val ∧ (i 1).val < win0_7.index (lastPt ⟨(i 0).val, h0⟩) (1 : Fin 3) * 256 + 256; omega
  | ⟨2, _⟩ => show win0_7.index (lastPt ⟨(i 0).val, h0⟩) (2 : Fin 3) * 1 ≤ (i 2).val ∧ (i 2).val < win0_7.index (lastPt ⟨(i 0).val, h0⟩) (2 : Fin 3) * 1 + 1; omega

theorem cover8 (i : S2x256x512.Idx) : ∃ t : Fin cfg0.N, (cfg0.win 8).flush t = true ∧ i ∈ ((cfg0.win 8).blk t).view.set := by
  have h0 : (i 0).val < 2 := (i 0).isLt
  have h1 : (i 1).val < 256 := (i 1).isLt
  have h2 : (i 2).val < 512 := (i 2).isLt
  obtain ⟨-, -, e0, e1, e2⟩ := out_index (lastPt ⟨(i 0).val, h0⟩)
  have ev : (lastPt ⟨(i 0).val, h0⟩).val = (i 0).val * 50 + 49 := rfl
  refine ⟨lastPt ⟨(i 0).val, h0⟩, (flush0_8 _).mpr (by rw [ev]; omega), ?_⟩
  show i ∈ ((View.whole main_v3_2).slice (win0_8.rect (lastPt ⟨(i 0).val, h0⟩))).set
  rw [View.set_slice_whole, Rect.mem_set_unit]
  intro a
  match a with
  | ⟨0, _⟩ => show win0_8.index (lastPt ⟨(i 0).val, h0⟩) (0 : Fin 3) * 1 ≤ (i 0).val ∧ (i 0).val < win0_8.index (lastPt ⟨(i 0).val, h0⟩) (0 : Fin 3) * 1 + 1; omega
  | ⟨1, _⟩ => show win0_8.index (lastPt ⟨(i 0).val, h0⟩) (1 : Fin 3) * 256 ≤ (i 1).val ∧ (i 1).val < win0_8.index (lastPt ⟨(i 0).val, h0⟩) (1 : Fin 3) * 256 + 256; omega
  | ⟨2, _⟩ => show win0_8.index (lastPt ⟨(i 0).val, h0⟩) (2 : Fin 3) * 512 ≤ (i 2).val ∧ (i 2).val < win0_8.index (lastPt ⟨(i 0).val, h0⟩) (2 : Fin 3) * 512 + 512; omega

/-- The two write-backs (one per half) cover array 6, so after the run it is `G6`. -/
theorem final6 (c : Dev nD) : (dats (F := Ideal) m 0 c).arrAt 6 cfg0.N = G6 m c :=
  (dats m 0 c).arrAt_eq_of_cover 6 (G6 m c) (flushed6_eq m c) cover6

theorem final7 (c : Dev nD) : (dats (F := Ideal) m 0 c).arrAt 7 cfg0.N = G7 m c :=
  (dats m 0 c).arrAt_eq_of_cover 7 (G7 m c) (flushed7_eq m c) cover7

theorem final8 (c : Dev nD) : (dats (F := Ideal) m 0 c).arrAt 8 cfg0.N = G8 m c :=
  (dats m 0 c).arrAt_eq_of_cover 8 (G8 m c) (flushed8_eq m c) cover8

theorem arr6 (c : Dev nD) (a : Fin 2) (k : Fin 256) (z : Fin 1) :
    ((dats (F := Ideal) m 0 c).arrAt 6 cfg0.N : S2x256x1.Idx → EReal) (ix3 a k z) = coreSum (argSeg m c) (sc m c) a k :=
  congrFun (final6 m c) (ix3 a k z)

theorem arr7 (c : Dev nD) (a : Fin 2) (k : Fin 256) (z : Fin 1) :
    ((dats (F := Ideal) m 0 c).arrAt 7 cfg0.N : S2x256x1.Idx → EReal) (ix3 a k z) = coreSum (argSeg m c) (esc m c) a k :=
  congrFun (final7 m c) (ix3 a k z)

theorem arr8 (c : Dev nD) (a : Fin 2) (k : Fin 256) (j : Fin 512) :
    ((dats (F := Ideal) m 0 c).arrAt 8 cfg0.N : S2x256x512.Idx → EReal) (ix3 a k j) = coreSum (argSeg m c) (wsc m c j) a k :=
  congrFun (final8 m c) (ix3 a k j)

end Cert.KernelIdeal.Val

end
-- ==== Proof.KTail.lean ====
import proofs.«427669_j44916767981572_2_alg».proof.Proof.Gen.KernelIdeal.Frame
import proofs.«427669_j44916767981572_2_alg».proof.Proof.Spec
import proofs.«427669_j44916767981572_2_alg».proof.Proof.LibDot2
import Idealize.ShloMosaic.Lib.Pipeline.Value
import Idealize.ShloMosaic.Lib.ValueLayout
import Idealize.ShloMosaic.Lib.StableHlo.Run
import Idealize.ShloMosaic.Lib.Tactic
import proofs.«427669_j44916767981572_2_alg».proof.Proof.KArgs
import proofs.«427669_j44916767981572_2_alg».proof.Proof.KFinal
import proofs.«427669_j44916767981572_2_alg».proof.Proof.SpecAlgebra

set_option maxRecDepth 16384

noncomputable section

open Idealize.ShloMosaic Idealize.ShloMosaic.TcCoe Idealize.SL.Sem Idealize.ShloMosaic.ValueIdx
open Idealize.ShloMosaic.Pipeline (Dat)
open scoped BigOperators

/-! The idealized kernel's run, read: its result is the one-pass form of the pooled output of its arguments. -/

namespace Cert.KernelIdeal.Val

open Cert.KernelIdeal Cert.KernelIdeal.Gen Cert.AttnPool

variable (m : (ℓ : Loc nD τ sig) → Buf (Elt Ideal) ℓ) (ρ : Dev nD → PrngReg)

/-- The host's sum, from zero, over the leading axis of a [2, 256, 1] array, read at an index: the two halves' entries added. -/
theorem reduce1_apply (x : Vec Ideal S2x256x1 .f32) (k : Fin 256) (z : Fin 1) :
    (Host.reduceAdd (F := Ideal) x (constant (F := Ideal) S_ .f32 0x00000000#32) reducesTo_S2x256x1_S256x1_d0 h_S_ : S256x1.Idx → EReal) (ix2 k z)
      = ∑ a : Fin 2, x (ix3 a k z) := by
  have h : S2x256x1.Reduces [0] S256x1 := by decide
  refine (Ideal.hostReduceAdd_single reducesTo_S2x256x1_S256x1_d0 h x _ (ix2 k z)).trans ?_
  show (Ideal.ofBits .f32 0x00000000#32 : EReal) + ∑ a : Fin 2, x (h.lift (ix2 k z) a) = _
  rw [Ideal.ofBits_zero_f32, zero_add]
  refine Finset.sum_congr rfl (fun a _ => congrArg x ?_)
  funext d
  match d with
  | ⟨0, _⟩ => rfl
  | ⟨1, _⟩ => rfl
  | ⟨2, _⟩ => rfl

/-- The same for a [2, 256, 512] array. -/
theorem reduce3_apply (x : Vec Ideal S2x256x512 .f32) (k : Fin 256) (j : Fin 512) :
    (Host.reduceAdd (F := Ideal) x (constant (F := Ideal) S_ .f32 0x00000000#32) reducesTo_S2x256x512_S256x512_d0 h_S_ : S256x512.Idx → EReal) (ix2 k j)
      = ∑ a : Fin 2, x (ix3 a k j) := by
  have h : S2x256x512.Reduces [0] S256x512 := by decide
  refine (Ideal.hostReduceAdd_single reducesTo_S2x256x512_S256x512_d0 h x _ (ix2 k j)).trans ?_
  show (Ideal.ofBits .f32 0x00000000#32 : EReal) + ∑ a : Fin 2, x (h.lift (ix2 k j) a) = _
  rw [Ideal.ofBits_zero_f32, zero_add]
  refine Finset.sum_congr rfl (fun a _ => congrArg x ?_)
  funext d
  match d with
  | ⟨0, _⟩ => rfl
  | ⟨1, _⟩ => rfl
  | ⟨2, _⟩ => rfl

/-- The host operations after the kernel region, read at entry (k, j) of the result: with A, B, C the three arrays' halves
    added, C (k, j) / (B k + ε · exp (A k)) — the [256, 1] normaliser broadcast along the columns, ε the scalar constant
    broadcast to [256, 1]. -/
theorem tail_apply (a6 a7 : Vec Ideal S2x256x1 .f32) (a8 : Vec Ideal S2x256x512 .f32) (k : Fin 256) (j : Fin 512) :
    (Host.divf (F := Ideal)
        (Host.reduceAdd (F := Ideal) a8 (constant (F := Ideal) S_ .f32 0x00000000#32) reducesTo_S2x256x512_S256x512_d0 h_S_)
        (broadcastInDim S256x512 ![0, 1] bcast_S256x1_S256x512_0_1
          (addf (Host.reduceAdd (F := Ideal) a7 (constant (F := Ideal) S_ .f32 0x00000000#32) reducesTo_S2x256x1_S256x1_d0 h_S_)
            (mulf (broadcastInDim S256x1 ![] bcast_S_S256x1 (constant (F := Ideal) S_ .f32 0x322BCC77#32))
              (Host.exp (Host.reduceAdd (F := Ideal) a6 (constant (F := Ideal) S_ .f32 0x00000000#32) reducesTo_S2x256x1_S256x1_d0 h_S_))))) : S256x512.Idx → EReal) (ix2 k j)
      = Ideal.div (∑ a : Fin 2, a8 (ix3 a k j))
          ((∑ a : Fin 2, a7 (ix3 a k 0)) + eps * Ideal.exp (∑ a : Fin 2, a6 (ix3 a k 0))) := by
  refine congrArg₂ Ideal.div (reduce3_apply a8 k j) ?_
  have hk : ∀ a : Fin S256x1.rank, ((ix2 k (0 : Fin 1) : S256x1.Idx) a).val
      = if S256x1.size a = 1 then 0 else ((ix2 k j : S256x512.Idx) ((![0, 1] : Fin 2 → Fin S256x512.rank) a)).val := fun a => by
    match a with
    | ⟨0, _⟩ => rfl
    | ⟨1, _⟩ => rfl
  refine (broadcastInDim_apply _ bcast_S256x1_S256x512_0_1 _ (ix2 k j) (ix2 k 0) hk).trans ?_
  exact congrArg₂ (fun u v : EReal => u + eps * Ideal.exp v) (reduce1_apply a7 k 0) (reduce1_apply a6 k 0)

/-- The three arrays the kernel region wrote, as the run leaves them. -/
abbrev A6 (c : Dev nD) : Vec Ideal S2x256x1 .f32 := (dats (F := Ideal) m 0 c).arrAt 6 cfg0.N
abbrev A7 (c : Dev nD) : Vec Ideal S2x256x1 .f32 := (dats (F := Ideal) m 0 c).arrAt 7 cfg0.N
abbrev A8 (c : Dev nD) : Vec Ideal S2x256x512 .f32 := (dats (F := Ideal) m 0 c).arrAt 8 cfg0.N

/-- The two halves' parts of segment `k`'s sum of scores, added, are the segment's sum. -/
theorem sumA6 (c : Dev nD) (k : Fin 256) : ∑ a : Fin 2, A6 m c (ix3 a k 0)
    = sumScore (argX m c) (argSeg m c) (argW1 m c) (argB1 m c) (argW2 m c) (argB2 m c) k := by
  unfold sumScore; rw [segSum_eq_cores]; exact Finset.sum_congr rfl (fun a _ => arr6 m c a k 0)

/-- The same for the exponentiated scores. -/
theorem sumA7 (c : Dev nD) (k : Fin 256) : ∑ a : Fin 2, A7 m c (ix3 a k 0)
    = sumExp (argX m c) (argSeg m c) (argW1 m c) (argB1 m c) (argW2 m c) (argB2 m c) k := by
  unfold sumExp; rw [segSum_eq_cores]; exact Finset.sum_congr rfl (fun a _ => arr7 m c a k 0)

/-- The same for column `j` of the weighted rows. -/
theorem sumA8 (c : Dev nD) (k : Fin 256) (j : Fin 512) : ∑ a : Fin 2, A8 m c (ix3 a k j)
    = sumWeighted (argX m c) (argSeg m c) (argW1 m c) (argB1 m c) (argW2 m c) (argB2 m c) k j := by
  unfold sumWeighted; rw [segSum_eq_cores]; exact Finset.sum_congr rfl (fun a _ => arr8 m c a k j)

/-- What the host tail leaves in the result array: the one-pass form of the core's arguments. Each of the three arrays the
    kernel region wrote holds, at (a, k, ·), half `a`'s part of segment `k`'s sum; the tail adds the two halves, which is
    the whole segment's sum, and forms C / (B + ε · exp A). -/
theorem tail_v12 (c : Dev nD) :
    Pipeline.afterTail₀ cfgs (dats (F := Ideal) m) 0 (V0 m) [hostOps1] c main_v12
      = onePass (argX m c) (argSeg m c) (argW1 m c) (argB1 m c) (argW2 m c) (argB2 m c) := by
  unfold Pipeline.afterTail₀
  show StableHlo.after hostOps1 _ (Proc.devRef .tc main_v12) = _
  after_results
  have e6 : Pipeline.withArrays (cfgs 0).spec c (V0 m c) (fun w => (dats m 0 c).arrAt w (cfgs 0).N) (Proc.devRef .tc main_v3_0)
      = A6 m c := Pipeline.withArrays_arr spec0 launch0.win.arr_inj c _ _ 6
  have e7 : Pipeline.withArrays (cfgs 0).spec c (V0 m c) (fun w => (dats m 0 c).arrAt w (cfgs 0).N) (Proc.devRef .tc main_v3_1)
      = A7 m c := Pipeline.withArrays_arr spec0 launch0.win.arr_inj c _ _ 7
  have e8 : Pipeline.withArrays (cfgs 0).spec c (V0 m c) (fun w => (dats m 0 c).arrAt w (cfgs 0).N) (Proc.devRef .tc main_v3_2)
      = A8 m c := Pipeline.withArrays_arr spec0 launch0.win.arr_inj c _ _ 8
  rw [e6, e7, e8]
  funext i
  obtain ⟨k, j, rfl⟩ : ∃ (k : Fin 256) (j : Fin 512), i = ix2 k j := ⟨i 0, i 1, eq_ix2 i⟩
  refine (tail_apply (A6 m c) (A7 m c) (A8 m c) k j).trans ?_
  rw [sumA6, sumA7, sumA8]
  rfl

/-- The run: every fair execution of the program ends with the result array at the one-pass form of the arguments and
    the six arguments as they were (an argument a window stages keeps its region-entry contents; one that is only reshaped
    on the host is written by nothing). -/
theorem run : θ_run (defs (F := Ideal)) (onTc (τ := τ) (main (F := Ideal))) ⟨m, fun _ => 0, ρ⟩ (fun r => ∀ c : Dev nD,
      r.2.mem ((c.tc : Thread nD τ).loc main_v12) = onePass (argX m c) (argSeg m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v12 (Pipeline.mem_restRefs_of main_v12 rfl (by decide))).trans (tail_v12 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Val

end
-- ==== Proof.RefValue.lean ====
import proofs.«427669_j44916767981572_2_alg».proof.Proof.Gen.ReferenceIdeal.Run
import proofs.«427669_j44916767981572_2_alg».proof.Proof.Gen.ReferenceIdeal.Read
import proofs.«427669_j44916767981572_2_alg».proof.Proof.Spec
import proofs.«427669_j44916767981572_2_alg».proof.Proof.LibDot2
import Idealize.ShloMosaic.Lib.Pipeline.Value
import Idealize.ShloMosaic.Lib.ValueLayout
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open scoped BigOperators

/-! The idealized reference's run, read: its result is the two-pass form of the pooled output of its arguments. -/

namespace Cert.ReferenceIdeal.RefVal

open Cert.ReferenceIdeal Cert.ReferenceIdeal.Gen Cert.AttnPool

/-! ## A row scatter-add and a column gather, read at an index -/

/-- The dimension numbers of "add row n of the updates [N, C] into the row of the operand [K, C] that entry n of
    the index column [N, 1] names". -/
abbrev rowScatter (K N C : Nat) (wf : ScatterDims.WF ⟨2, ![K, C]⟩ ⟨2, ![N, 1]⟩ ⟨2, ![N, C]⟩ [1] [0] [0] 1) :
    ScatterDims ⟨2, ![K, C]⟩ ⟨2, ![N, 1]⟩ ⟨2, ![N, C]⟩ where
  updateWindowDims := [1]
  insertedWindowDims := [0]
  scatterDimsToOperandDims := [0]
  indexVectorDim := 1
  wf := wf

section Scatter
variable {K N C w : Nat} (wf : ScatterDims.WF ⟨2, ![K, C]⟩ ⟨2, ![N, 1]⟩ ⟨2, ![N, C]⟩ [1] [0] [0] 1)
  (idx : IVec ⟨2, ![N, 1]⟩ w) (n : Fin N) (b : Fin C)

theorem rs_start0 : (rowScatter K N C wf).start (ix2 n b) idx 0 = (idx (ix2 n 0)).toInt := by
  unfold ScatterDims.start
  rw [dif_pos (show (0 : Fin 2) ∈ (rowScatter K N C wf).scatterDimsToOperandDims from List.mem_singleton.mpr rfl)]
  congr 2
  funext a
  refine Fin.ext ?_
  match a with
  | ⟨0, _⟩ => rfl
  | ⟨1, _⟩ => rfl

theorem rs_start1 : (rowScatter K N C wf).start (ix2 n b) idx 1 = 0 := by
  unfold ScatterDims.start
  rw [dif_neg (show ¬ (1 : Fin 2) ∈ ([0] : List (Fin 2)) by decide)]

theorem rs_window0 : (rowScatter K N C wf).window (ix2 n b) 0 = 0 := by
  unfold ScatterDims.window
  have h : ¬ (0 : Fin 2) ∈ (rowScatter K N C wf).sKept :=
    (show ¬ (0 : Fin 2) ∈ (List.finRange 2).filter (· ∉ ([0] : List (Fin 2))) by decide)
  rw [dif_neg h]

theorem rs_window1 : (rowScatter K N C wf).window (ix2 n b) 1 = b.val := by
  unfold ScatterDims.window
  have h : (1 : Fin 2) ∈ (rowScatter K N C wf).sKept :=
    (show (1 : Fin 2) ∈ (List.finRange 2).filter (· ∉ ([0] : List (Fin 2))) by decide)
  rw [dif_pos h]
  rfl

/-- Update `(n, b)` lands on operand element `(k, j)` exactly when entry `n` of the index column, read signed, is
    `k` and the columns agree: the start is not clamped, the window coordinate is the column. -/
theorem rs_resultIdx_iff (k : Fin K) (j : Fin C) :
    (rowScatter K N C wf).resultIdx? (ix2 n b) idx = some (ix2 k j)
      ↔ ((idx (ix2 n 0)).toInt = (k.val : Int) ∧ b = j) := by
  have hS0 : (rowScatter K N C wf).start (ix2 n b) idx 0 + ((rowScatter K N C wf).window (ix2 n b) 0 : Int)
      = (idx (ix2 n 0)).toInt := by
    rw [rs_start0, rs_window0]; simp
  have hS1 : (rowScatter K N C wf).start (ix2 n b) idx 1 + ((rowScatter K N C wf).window (ix2 n b) 1 : Int)
      = (b.val : Int) := by
    rw [rs_start1, rs_window1]; simp
  unfold ScatterDims.resultIdx?
  constructor
  · intro h
    split at h
    · rename_i hh
      have e := Option.some.inj h
      have e0 : ((rowScatter K N C wf).start (ix2 n b) idx 0 + ((rowScatter K N C wf).window (ix2 n b) 0 : Int)).toNat
          = k.val := congrArg (fun f : (⟨2, ![K, C]⟩ : Shape).Idx => (f 0).val) e
      have e1 : ((rowScatter K N C wf).start (ix2 n b) idx 1 + ((rowScatter K N C wf).window (ix2 n b) 1 : Int)).toNat
          = j.val := congrArg (fun f : (⟨2, ![K, C]⟩ : Shape).Idx => (f 1).val) e
      have p0 := (hh 0).1
      rw [hS0] at e0 p0
      rw [hS1] at e1
      exact ⟨by omega, Fin.ext (by omega)⟩
    · exact absurd h (by simp)
  · rintro ⟨ht, rfl⟩
    have hh : ∀ a : Fin 2, 0 ≤ (rowScatter K N C wf).start (ix2 n b) idx a + ((rowScatter K N C wf).window (ix2 n b) a : Int)
        ∧ (rowScatter K N C wf).start (ix2 n b) idx a + ((rowScatter K N C wf).window (ix2 n b) a : Int)
          < ((⟨2, ![K, C]⟩ : Shape).size a : Nat) := by
      refine Fin.forall_fin_two.2 ⟨?_, ?_⟩
      · rw [hS0, ht]
        exact ⟨by omega, by exact_mod_cast k.isLt⟩
      · rw [hS1]
        exact ⟨by omega, by exact_mod_cast b.isLt⟩
    rw [dif_pos hh]
    congr 1
    funext a
    refine Fin.ext ?_
    match a with
    | ⟨0, _⟩ =>
      show ((rowScatter K N C wf).start (ix2 n b) idx 0 + ((rowScatter K N C wf).window (ix2 n b) 0 : Int)).toNat = k.val
      rw [hS0, ht]; simp
    | ⟨1, _⟩ =>
      show ((rowScatter K N C wf).start (ix2 n b) idx 1 + ((rowScatter K N C wf).window (ix2 n b) 1 : Int)).toNat = b.val
      rw [hS1]; simp

end Scatter

/-- THE ROW SCATTER-ADD READ AT `(k, j)`, at the ideal instance: the operand's element plus column `j` of every
    update row whose index entry, read signed, is `k` (a row whose entry names no row of the operand adds nothing). -/
theorem rowScatterAdd_apply {K N C w : Nat} (wf : ScatterDims.WF ⟨2, ![K, C]⟩ ⟨2, ![N, 1]⟩ ⟨2, ![N, C]⟩ [1] [0] [0] 1)
    (x : (⟨2, ![K, C]⟩ : Shape).Idx → EReal) (idx : IVec ⟨2, ![N, 1]⟩ w) (upd : (⟨2, ![N, C]⟩ : Shape).Idx → EReal)
    (k : Fin K) (j : Fin C) :
    Ideal.hostScatterAdd (rowScatter K N C wf) x idx upd (ix2 k j)
      = x (ix2 k j) + ∑ n : Fin N, if (idx (ix2 n 0)).toInt = (k.val : Int) then upd (ix2 n j) else 0 := by
  classical
  unfold Ideal.hostScatterAdd
  congr 1
  rw [Finset.sum_filter, sum_idx2]
  refine Finset.sum_congr rfl fun n _ => ?_
  simp only [rs_resultIdx_iff]
  by_cases ht : (idx (ix2 n 0)).toInt = (k.val : Int)
  · simp only [ht, true_and, if_true]
    rw [Finset.sum_ite_eq' Finset.univ j (fun b => upd (ix2 n b))]
    simp
  · simp [ht]

/-- The dimension numbers of "entry n of the result column [N, 1] is the operand column's [K, 1] entry at the
    position entry n of the index column [N, 1] names". -/
abbrev colGather (K N : Nat) (wf : GatherDims.WF ⟨2, ![K, 1]⟩ ⟨2, ![N, 1]⟩ ⟨2, ![N, 1]⟩ [1] [0] [] [0] [] 1 ![1, 1]) :
    GatherDims ⟨2, ![K, 1]⟩ ⟨2, ![N, 1]⟩ ⟨2, ![N, 1]⟩ where
  offsetDims := [1]
  collapsedSliceDims := [0]
  operandBatchingDims := []
  startIndicesBatchingDims := []
  startIndexMap := [0]
  indexVectorDim := 1
  sliceSizes := ![1, 1]
  wf := wf

/-- THE COLUMN GATHER READ AT `(n, 0)`: the operand at the position entry `n` of the index column names, read signed
    and clamped into `[0, K − 1]`. -/
theorem colGather_apply {α : Type} {K N w : Nat} (hK : 0 < K)
    (wf : GatherDims.WF ⟨2, ![K, 1]⟩ ⟨2, ![N, 1]⟩ ⟨2, ![N, 1]⟩ [1] [0] [] [0] [] 1 ![1, 1])
    (x : (⟨2, ![K, 1]⟩ : Shape).Idx → α) (idx : IVec ⟨2, ![N, 1]⟩ w) (n : Fin N) :
    Host.gather (colGather K N wf) x idx (ix2 n 0)
      = x (ix2 ⟨min (idx (ix2 n 0)).toInt.toNat (K - 1), by omega⟩ 0) := by
  unfold Host.gather
  congr 1
  funext a
  refine Fin.ext ?_
  match a with
  | ⟨0, _⟩ =>
    show (colGather K N wf).start (ix2 n 0) idx 0 + (colGather K N wf).batchCoord (ix2 n 0) 0
      + (colGather K N wf).offCoord (ix2 n 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather K N wf).startIndexMap from List.mem_singleton.mpr rfl)]
    have hsi : (colGather K N wf).siIdx (ix2 n 0) ⟨List.idxOf (0 : Fin 2) (colGather K N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show (colGather K N wf).start (ix2 n 0) idx 1 + (colGather K N wf).batchCoord (ix2 n 0) 1
      + (colGather K N wf).offCoord (ix2 n 0) 1 = 0
    have hb := GatherDims.batchCoord_eq_zero (colGather K N wf) (ix2 n 0) 1 List.not_mem_nil
    have hs : (colGather K N wf).start (ix2 n 0) idx 1 = 0 := by
      unfold GatherDims.start
      rw [dif_neg (show ¬ (1 : Fin 2) ∈ ([0] : List (Fin 2)) by decide)]
    have ho := GatherDims.offCoord_lt (colGather K N wf) (ix2 n 0) 1
      ((GatherDims.mem_sKept _ _).2 ⟨(show ¬ (1 : Fin 2) ∈ ([0] : List (Fin 2)) by decide), List.not_mem_nil⟩)
    have h1 : (colGather K N wf).sliceSizes 1 = 1 := rfl
    rw [hb, hs]; omega

/-! ## The two operations against the specification's vocabulary -/

/-- A 32-bit word whose signed reading is a segment number below 256 is that number's word, and conversely. -/
theorem toInt_eq_iff (v : BitVec 32) (k : Fin 256) : v.toInt = (k.val : Int) ↔ v = BitVec.ofNat 32 k.val := by
  have hk : (BitVec.ofNat 32 k.val).toInt = (k.val : Int) := by
    have := k.isLt
    rw [BitVec.toInt_eq_toNat_cond, BitVec.toNat_ofNat]
    omega
  constructor
  · intro h; exact BitVec.eq_of_toInt_eq (h.trans hk.symm)
  · rintro rfl; exact hk

/-- Rows of updates added into a zero table by the rows' id words: element `(k, j)` is segment `k`'s sum of
    column `j`. Stated for any record `d` of the row scatter's dimension numbers. -/
theorem scatter_segSum {C : Nat} (wf : ScatterDims.WF ⟨2, ![256, C]⟩ ⟨2, ![200000, 1]⟩ ⟨2, ![200000, C]⟩ [1] [0] [0] 1)
    (d : ScatterDims ⟨2, ![256, C]⟩ ⟨2, ![200000, 1]⟩ ⟨2, ![200000, C]⟩) (hd : d = rowScatter 256 200000 C wf)
    (seg : SSeg.Idx → BitVec 32) (I : IVec ⟨2, ![200000, 1]⟩ 32) (hI : ∀ n : Fin 200000, I (ix2 n 0) = seg (ix1 n))
    (z : FVec Ideal ⟨2, ![256, C]⟩ .f32) (hz : ∀ i, z i = 0)
    (upd : FVec Ideal ⟨2, ![200000, C]⟩ .f32) (k : Fin 256) (j : Fin C) :
    Host.scatterAdd (F := Ideal) d z I upd (ix2 k j) = segSum seg (fun n => upd (ix2 n j)) k := by
  subst hd
  unfold Host.scatterAdd
  rw [Ideal.hostScatterAdd_def, rowScatterAdd_apply, hz, zero_add]
  unfold segSum
  refine Finset.sum_congr rfl fun n _ => ?_
  rw [hI]
  by_cases h : inSeg seg n k
  · rw [if_pos h, if_pos ((toInt_eq_iff _ _).2 h)]
  · rw [if_neg h, if_neg (fun e => h ((toInt_eq_iff _ _).1 e))]

/-- The position a normalised id word reads a 256-entry table at (signed, clamped) is the row's `readSeg`. -/
theorem clamp_eq_readSeg (seg : SSeg.Idx → BitVec 32) (n : Fin 200000) (v : BitVec 32)
    (hv : v = if (seg (ix1 n)).slt 0#32 then seg (ix1 n) + 256#32 else seg (ix1 n)) (h : min v.toInt.toNat (256 - 1) < 256) :
    (⟨min v.toInt.toNat (256 - 1), h⟩ : Fin 256) = readSeg seg n := by
  subst hv
  exact Fin.ext rfl

/-! ## The reference's stages, read at an index -/

section Chain
variable (x0 : (⟨S200000x512, .f32⟩ : BufTy).Contents (Elt Ideal)) (x1 : (⟨S200000, .i32⟩ : BufTy).Contents (Elt Ideal))
  (x2 : (⟨S512x256, .f32⟩ : BufTy).Contents (Elt Ideal)) (x3 : (⟨S256, .f32⟩ : BufTy).Contents (Elt Ideal))
  (x4 : (⟨S256x1, .f32⟩ : BufTy).Contents (Elt Ideal)) (x5 : (⟨S1, .f32⟩ : BufTy).Contents (Elt Ideal))

/-! The index functions of the generated reads, at indices given by coordinates. -/

private theorem lidx0 (n : Fin 200000) (h : Fin 256) (d : Fin 512) : Read.lidx_main_v0 (ix2 n h) d = ix2 n d := by
  funext a; match a with | ⟨0, _⟩ => rfl | ⟨1, _⟩ => rfl
private theorem ridx0 (n : Fin 200000) (h : Fin 256) (d : Fin 512) : Read.ridx_main_v0 (ix2 n h) d = ix2 d h := by
  funext a; match a with | ⟨0, _⟩ => rfl | ⟨1, _⟩ => rfl
private theorem idx12 (n : Fin 200000) (h : Fin 256) : Read.idx_main_v1 (Read.idx_main_v2 (ix2 n h)) = ix1 h := by
  funext a; match a with | ⟨0, _⟩ => rfl
private theorem lidx5 (n : Fin 200000) (h : Fin 256) : Read.lidx_main_v5 (ix2 n (0 : Fin 1)) h = ix2 n h := by
  funext a; match a with | ⟨0, _⟩ => rfl | ⟨1, _⟩ => rfl
private theorem ridx5 (n : Fin 200000) (h : Fin 256) : Read.ridx_main_v5 (ix2 n (0 : Fin 1)) h = ix2 h (0 : Fin 1) := by
  funext a; match a with | ⟨0, _⟩ => rfl | ⟨1, _⟩ => rfl
private theorem idx67 (n : Fin 200000) : Read.idx_main_v6 (Read.idx_main_v7 (ix2 n (0 : Fin 1))) = ix1 (0 : Fin 1) := by
  funext a; match a with | ⟨0, _⟩ => rfl
private theorem idx10 (n : Fin 200000) : Read.idx_main_v10 (ix2 n (0 : Fin 1)) = ix1 n := by
  funext a; match a with | ⟨0, _⟩ => rfl
private theorem idx17 (n : Fin 200000) : Read.idx_main_v17 (ix2 n (0 : Fin 1)) = ix1 n := by
  funext a; match a with | ⟨0, _⟩ => rfl
private theorem idx22 (n : Fin 200000) : Read.idx_main_v22 (ix2 n (0 : Fin 1)) = ix1 n := by
  funext a; match a with | ⟨0, _⟩ => rfl
private theorem idx29 (n : Fin 200000) : Read.idx_main_v29 (ix2 n (0 : Fin 1)) = ix1 n := by
  funext a; match a with | ⟨0, _⟩ => rfl
private theorem idx37 (n : Fin 200000) : Read.idx_main_v37 (ix2 n (0 : Fin 1)) = ix1 n := by
  funext a; match a with | ⟨0, _⟩ => rfl
private theorem idx34 (n : Fin 200000) (j : Fin 512) : Read.idx_main_v34 (ix2 n j) = ix2 n (0 : Fin 1) := by
  funext a; match a with | ⟨0, _⟩ => rfl | ⟨1, _⟩ => rfl

/-- The scores: entry `n` of the score column is row `n`'s two-layer score. -/
theorem score_eq (n : Fin 200000) :
    Read.val_main_v8 (F := Ideal) x0 x2 x3 x4 x5 (ix2 n (0 : Fin 1)) = score x0 x2 x3 x4 x5 n := by
  rw [Read.val_main_v8_apply, Read.val_main_v5_apply, Read.val_main_v7_apply, Read.val_main_v6_apply, idx67]
  unfold score
  rw [Ideal.addf_def]
  congr 1
  refine Finset.sum_congr rfl fun h _ => ?_
  rw [lidx5, ridx5, Read.val_main_v4_apply, Read.val_main_v3_apply, Read.val_main_v0_apply, Read.val_main_v2_apply,
    Read.val_main_v1_apply, idx12, Ideal.hostUnary_tanh_def, Ideal.addf_def]
  congr 3
  refine Finset.sum_congr rfl fun d _ => ?_
  rw [lidx0, ridx0]

/-- A row's normalised id word: 256 added to a negative id (the copy the first table read uses). -/
theorem norm17 (n : Fin 200000) :
    Read.val_main_v17 (F := Ideal) x1 (ix2 n (0 : Fin 1))
      = if (x1 (ix1 n)).slt 0#32 then x1 (ix1 n) + 256#32 else x1 (ix1 n) := by
  rw [Read.val_main_v17_apply, idx17, Read.val_main_v16_apply, Read.val_main_v13_apply, Read.val_main_v15_apply,
    Read.val_main_v12_apply, Read.val_main_v14_apply, Read.val_main_c_apply, Read.val_main_c_0_apply]
  show (if BitVec.ofBool ((x1 (ix1 n)).slt 0#32) = 1#1 then x1 (ix1 n) + 256#32 else x1 (ix1 n)) = _
  cases (x1 (ix1 n)).slt 0#32 <;> simp

/-- The same word, in the copy the second table read uses. -/
theorem norm29 (n : Fin 200000) :
    Read.val_main_v29 (F := Ideal) x1 (ix2 n (0 : Fin 1))
      = if (x1 (ix1 n)).slt 0#32 then x1 (ix1 n) + 256#32 else x1 (ix1 n) := by
  rw [Read.val_main_v29_apply, idx29, Read.val_main_v28_apply, Read.val_main_v25_apply, Read.val_main_v27_apply,
    Read.val_main_v24_apply, Read.val_main_v26_apply, Read.val_main_c_2_apply, Read.val_main_c_3_apply]
  show (if BitVec.ofBool ((x1 (ix1 n)).slt 0#32) = 1#1 then x1 (ix1 n) + 256#32 else x1 (ix1 n)) = _
  cases (x1 (ix1 n)).slt 0#32 <;> simp

/-- A: entry `k` of the first table is segment `k`'s sum of scores. -/
theorem sumScore_eq (k : Fin 256) :
    Read.val_main_v11 (F := Ideal) x0 x1 x2 x3 x4 x5 (ix2 k (0 : Fin 1)) = sumScore x0 x1 x2 x3 x4 x5 k := by
  refine (scatter_segSum scatter_S256x1_S200000x1_S200000x1_1_0_0_1_wf scatter_S256x1_S200000x1_S200000x1_1_0_0_1 rfl x1 (Read.val_main_v10 (F := Ideal) x1) (fun n => ?_)
    (Read.val_main_v9 (F := Ideal)) (fun i => ?_) (Read.val_main_v8 (F := Ideal) x0 x2 x3 x4 x5) k 0).trans ?_
  · rw [Read.val_main_v10_apply, idx10]
  · rw [Read.val_main_v9_apply, Read.val_main_cst_apply, Ideal.ofBits_def, Ideal.ofBits_zero_f32]
  · unfold sumScore segSum
    refine Finset.sum_congr rfl fun n _ => ?_
    beta_reduce
    rw [score_eq]

/-- Row `n` reads the first table at its `readSeg`. -/
theorem gatherScore_eq (n : Fin 200000) :
    Read.val_main_v18 (F := Ideal) x0 x1 x2 x3 x4 x5 (ix2 n (0 : Fin 1))
      = sumScore x0 x1 x2 x3 x4 x5 (readSeg x1 n) := by
  refine (colGather_apply (by decide) gather_S256x1_S200000x1_S200000x1_1_0_n_n_0_1_11_wf
    (Read.val_main_v11 (F := Ideal) x0 x1 x2 x3 x4 x5) (Read.val_main_v17 (F := Ideal) x1) n).trans ?_
  rw [clamp_eq_readSeg x1 n _ (norm17 x1 n), sumScore_eq]

/-- w: row `n`'s recentred weight. -/
theorem weight_eq (n : Fin 200000) :
    Read.val_main_v20 (F := Ideal) x0 x1 x2 x3 x4 x5 (ix2 n (0 : Fin 1)) = weight x0 x1 x2 x3 x4 x5 n := by
  rw [Read.val_main_v20_apply, Read.val_main_v19_apply, score_eq, gatherScore_eq, Ideal.hostUnary_exp_def, Ideal.subf_def]
  rfl

/-- B': entry `k` of the second table is segment `k`'s sum of recentred weights. -/
theorem sumWeight_eq (k : Fin 256) :
    Read.val_main_v23 (F := Ideal) x0 x1 x2 x3 x4 x5 (ix2 k (0 : Fin 1)) = sumWeight x0 x1 x2 x3 x4 x5 k := by
  refine (scatter_segSum scatter_S256x1_S200000x1_S200000x1_1_0_0_1_wf scatter_S256x1_S200000x1_S200000x1_1_0_0_1 rfl x1 (Read.val_main_v22 (F := Ideal) x1) (fun n => ?_)
    (Read.val_main_v21 (F := Ideal)) (fun i => ?_) (Read.val_main_v20 (F := Ideal) x0 x1 x2 x3 x4 x5) k 0).trans ?_
  · rw [Read.val_main_v22_apply, idx22]
  · rw [Read.val_main_v21_apply, Read.val_main_cst_1_apply, Ideal.ofBits_def, Ideal.ofBits_zero_f32]
  · unfold sumWeight segSum
    refine Finset.sum_congr rfl fun n _ => ?_
    beta_reduce
    rw [weight_eq]

/-- Row `n` reads the second table at its `readSeg`. -/
theorem gatherWeight_eq (n : Fin 200000) :
    Read.val_main_v30 (F := Ideal) x0 x1 x2 x3 x4 x5 (ix2 n (0 : Fin 1))
      = sumWeight x0 x1 x2 x3 x4 x5 (readSeg x1 n) := by
  refine (colGather_apply (by decide) gather_S256x1_S200000x1_S200000x1_1_0_n_n_0_1_11_wf
    (Read.val_main_v23 (F := Ideal) x0 x1 x2 x3 x4 x5) (Read.val_main_v29 (F := Ideal) x1) n).trans ?_
  rw [clamp_eq_readSeg x1 n _ (norm29 x1 n), sumWeight_eq]

/-- a: row `n`'s normalised weight. -/
theorem attn_eq (n : Fin 200000) :
    Read.val_main_v33 (F := Ideal) x0 x1 x2 x3 x4 x5 (ix2 n (0 : Fin 1)) = attn x0 x1 x2 x3 x4 x5 n := by
  rw [Read.val_main_v33_apply, Read.val_main_v32_apply, weight_eq, gatherWeight_eq, Read.val_main_v31_apply,
    Read.val_main_cst_4_apply, Ideal.hostDivf_def, Ideal.addf_def, Ideal.ofBits_def]
  rfl

/-- The reference's result is the two-pass form of its arguments. -/
theorem val38_eq : Read.val_main_v38 (F := Ideal) x0 x1 x2 x3 x4 x5 = twoPass x0 x1 x2 x3 x4 x5 := by
  funext i
  obtain ⟨k, j, rfl⟩ : ∃ k j, i = ix2 k j := ⟨i 0, i 1, eq_ix2 i⟩
  refine (scatter_segSum scatter_S256x512_S200000x1_S200000x512_1_0_0_1_wf scatter_S256x512_S200000x1_S200000x512_1_0_0_1 rfl x1 (Read.val_main_v37 (F := Ideal) x1) (fun n => ?_)
    (Read.val_main_v36 (F := Ideal)) (fun i => ?_) (Read.val_main_v35 (F := Ideal) x0 x1 x2 x3 x4 x5) k j).trans ?_
  · rw [Read.val_main_v37_apply, idx37]
  · rw [Read.val_main_v36_apply, Read.val_main_cst_5_apply, Ideal.ofBits_def, Ideal.ofBits_zero_f32]
  · show segSum x1 _ k = segSum x1 (fun n => x0 (ix2 n j) * attn x0 x1 x2 x3 x4 x5 n) k
    unfold segSum
    refine Finset.sum_congr rfl fun n _ => ?_
    beta_reduce
    rw [Read.val_main_v35_apply, Read.val_main_v34_apply, idx34, attn_eq, Ideal.mulf_def]

end Chain

variable (m : (ℓ : Loc nD τ sig) → Buf (Elt Ideal) ℓ) (ρ : Dev nD → PrngReg)

abbrev argX (c : Dev nD) : SX.Idx → EReal := m ((c.tc : Thread nD τ).loc main_arg0)
abbrev argSeg (c : Dev nD) : SSeg.Idx → BitVec 32 := m ((c.tc : Thread nD τ).loc main_arg1)
abbrev argW1 (c : Dev nD) : SW1.Idx → EReal := m ((c.tc : Thread nD τ).loc main_arg2)
abbrev argB1 (c : Dev nD) : SB1.Idx → EReal := m ((c.tc : Thread nD τ).loc main_arg3)
abbrev argW2 (c : Dev nD) : SW2.Idx → EReal := m ((c.tc : Thread nD τ).loc main_arg4)
abbrev argB2 (c : Dev nD) : SB2.Idx → EReal := m ((c.tc : Thread nD τ).loc main_arg5)

theorem run : θ_run (defs (F := Ideal)) (onTc (τ := τ) (main (F := Ideal))) ⟨m, fun _ => 0, ρ⟩ (fun r => ∀ c : Dev nD,
      r.2.mem ((c.tc : Thread nD τ).loc main_v38) = twoPass (argX m c) (argSeg m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => ⟨(h c).1.trans ((Read.val_main_v38_eq (F := Ideal) m c).trans
        (val38_eq (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)))), (h c).2⟩)
    (Cert.ReferenceIdeal.Value.run (F := Ideal) m ρ)

end Cert.ReferenceIdeal.RefVal

end
-- ==== Proof.lean ====
/-
  The certificate of the segment attention-pooling kernel against its two-pass reference.

  The kernel streams the 200000 rows once: per row a score s (a two-layer tanh scorer), and per segment k the three
  sums A = ∑ s, B = ∑ exp s, C = ∑ x · exp s over the segment's rows, accumulated block by block (100 blocks of 2000
  rows, two halves of 50) by products with the one-hot membership matrix; its result is C / (B + ε · exp A).
  The reference recentres every score by its segment's A before exponentiating, normalises by the recentred sum plus ε,
  and sums the weighted rows: ∑ x · exp (s - A) / (∑ exp (s - A) + ε).
  Over the extended reals with finite arguments these are one function: exp (s - A) = exp s / exp A and exp A > 0
  cancels between numerator and denominator (`AttnPool.onePass_eq_twoPass`). Rows whose id names no segment are
  dropped by both (the one-hot row is zero; the accumulating scatter ignores an index outside the 256 segments).
  The ideal pass rewrote nothing, so the idealization claim is trivial.
-/
import proofs.«427669_j44916767981572_2_alg».proof.Defs
import proofs.«427669_j44916767981572_2_alg».proof.Proof.Gen.Kernel
import proofs.«427669_j44916767981572_2_alg».proof.Proof.Gen.Kernel.Frame
import proofs.«427669_j44916767981572_2_alg».proof.Proof.Gen.KernelIdeal
import proofs.«427669_j44916767981572_2_alg».proof.Proof.Gen.KernelIdeal.Frame
import proofs.«427669_j44916767981572_2_alg».proof.Proof.Gen.ReferenceIdeal
import proofs.«427669_j44916767981572_2_alg».proof.Proof.Gen.ReferenceIdeal.Run
import proofs.«427669_j44916767981572_2_alg».proof.Proof.Gen.Pre_finite_inputs
import proofs.«427669_j44916767981572_2_alg».proof.Proof.Spec
import proofs.«427669_j44916767981572_2_alg».proof.Proof.SpecAlgebra
import proofs.«427669_j44916767981572_2_alg».proof.Proof.FiniteArgs
import proofs.«427669_j44916767981572_2_alg».proof.Proof.KTail
import proofs.«427669_j44916767981572_2_alg».proof.Proof.RefValue
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's run ends at the one-pass form of its arguments,
    the reference's at the two-pass form of arguments that agree with them, and over finite arguments (the
    precondition) the two forms are one function. -/
theorem algebraic : Cert.algebraic_KernelIdeal_ReferenceIdeal := by
  intro m ρ m' ρ' hpre hagree
  refine ⟨fun c => AttnPool.onePass (Cert.KernelIdeal.Val.argX m c) (Cert.KernelIdeal.Val.argSeg m c)
    (Cert.KernelIdeal.Val.argW1 m c) (Cert.KernelIdeal.Val.argB1 m c) (Cert.KernelIdeal.Val.argW2 m c)
    (Cert.KernelIdeal.Val.argB2 m c), Cert.KernelIdeal.Val.run m ρ, ?_⟩
  refine (θ_run Cert.ReferenceIdeal.defs _ _).mono (fun r h c => ⟨(h c).1.trans ?_, (h c).2⟩)
    (Cert.ReferenceIdeal.RefVal.run m' ρ')
  obtain ⟨hx, hW1, hb1, hW2, hb2⟩ := Cert.FiniteArgs.real_of_pre _ _ _ _ _ _ (hpre c)
  obtain ⟨e0, e1, e2, e3, e4, e5⟩ := hagree c
  have h0 : Cert.ReferenceIdeal.RefVal.argX m' c = Cert.KernelIdeal.Val.argX m c := e0
  have h1 : Cert.ReferenceIdeal.RefVal.argSeg m' c = Cert.KernelIdeal.Val.argSeg m c := e1
  have h2 : Cert.ReferenceIdeal.RefVal.argW1 m' c = Cert.KernelIdeal.Val.argW1 m c := e2
  have h3 : Cert.ReferenceIdeal.RefVal.argB1 m' c = Cert.KernelIdeal.Val.argB1 m c := e3
  have h4 : Cert.ReferenceIdeal.RefVal.argW2 m' c = Cert.KernelIdeal.Val.argW2 m c := e4
  have h5 : Cert.ReferenceIdeal.RefVal.argB2 m' c = Cert.KernelIdeal.Val.argB2 m c := e5
  rw [h0, h1, h2, h3, h4, h5]
  exact (AttnPool.onePass_eq_twoPass _ _ _ _ _ _ hx hW1 hb1 hW2 hb2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
